-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S10000x64 : Shape := ⟨2, ![10000, 64]⟩

abbrev nBuf : Space → Nat
  | .hbm => 84
  | .vmem => 12
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S100000, .f32⟩
  | .hbm, ⟨15, _⟩ => ⟨S_, .i32⟩
  | .hbm, ⟨16, _⟩ => ⟨S1700000, .i32⟩
  | .hbm, ⟨17, _⟩ => ⟨S1700000, .i1⟩
  | .hbm, ⟨18, _⟩ => ⟨S_, .i32⟩
  | .hbm, ⟨19, _⟩ => ⟨S1700000, .i32⟩
  | .hbm, ⟨20, _⟩ => ⟨S1700000, .i32⟩
  | .hbm, ⟨21, _⟩ => ⟨S1700000, .i32⟩
  | .hbm, ⟨22, _⟩ => ⟨S1700000x1, .i32⟩
  | .hbm, ⟨23, _⟩ => ⟨S_, .f32⟩
  | .hbm, ⟨24, _⟩ => ⟨S1700000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x64, .f32⟩
  | .hbm, ⟨57, _⟩ => ⟨S1700000x1, .f32⟩
  | .hbm, ⟨58, _⟩ => ⟨S1700000x64, .f32⟩
  | .hbm, ⟨59, _⟩ => ⟨S1700000x64, .f32⟩
  | .hbm, ⟨60, _⟩ => ⟨S_, .f32⟩
  | .hbm, ⟨61, _⟩ => ⟨S100000x64, .f32⟩
  | .hbm, ⟨62, _⟩ => ⟨S1700000x1, .i32⟩
  | .hbm, ⟨63, _⟩ => ⟨S100000x64, .f32⟩
  | .hbm, ⟨64, _⟩ => ⟨S1x64, .f32⟩
  | .hbm, ⟨65, _⟩ => ⟨S100000x64, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x64, .f32⟩
  | .hbm, ⟨75, _⟩ => ⟨S1700000x1, .f32⟩
  | .hbm, ⟨76, _⟩ => ⟨S1700000x64, .f32⟩
  | .hbm, ⟨77, _⟩ => ⟨S1700000x64, .f32⟩
  | .hbm, ⟨78, _⟩ => ⟨S_, .f32⟩
  | .hbm, ⟨79, _⟩ => ⟨S100000x64, .f32⟩
  | .hbm, ⟨80, _⟩ => ⟨S1700000x1, .i32⟩
  | .hbm, ⟨81, _⟩ => ⟨S100000x64, .f32⟩
  | .hbm, ⟨82, _⟩ => ⟨S1x64, .f32⟩
  | .hbm, ⟨83, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S64x64, .f32⟩
  | .local _ .vmem, ⟨9, _⟩ => ⟨S1x64, .f32⟩
  | .local _ .vmem, ⟨10, _⟩ => ⟨S10000x64, .f32⟩
  | .local _ .vmem, ⟨11, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_c_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_c_10 : Ref sig .tc := ⟨.hbm, 66, rfl⟩
abbrev main_v48 : Ref sig .tc := ⟨.hbm, 67, rfl⟩
abbrev main_v49 : Ref sig .tc := ⟨.hbm, 68, rfl⟩
abbrev main_c_11 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_12 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v45) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v46) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v47) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v60) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v61) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v62) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩

abbrev nBuf : Space → Nat
  | .hbm => 110
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S100000, .f32⟩
  | .hbm, ⟨15, _⟩ => ⟨S_, .i32⟩
  | .hbm, ⟨16, _⟩ => ⟨S1700000, .i32⟩
  | .hbm, ⟨17, _⟩ => ⟨S1700000, .i1⟩
  | .hbm, ⟨18, _⟩ => ⟨S_, .i32⟩
  | .hbm, ⟨19, _⟩ => ⟨S1700000, .i32⟩
  | .hbm, ⟨20, _⟩ => ⟨S1700000, .i32⟩
  | .hbm, ⟨21, _⟩ => ⟨S1700000, .i32⟩
  | .hbm, ⟨22, _⟩ => ⟨S1700000x1, .i32⟩
  | .hbm, ⟨23, _⟩ => ⟨S_, .f32⟩
  | .hbm, ⟨24, _⟩ => ⟨S1700000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x64, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x64, .f32⟩
  | .hbm, ⟨58, _⟩ => ⟨S1700000x1, .f32⟩
  | .hbm, ⟨59, _⟩ => ⟨S1700000x64, .f32⟩
  | .hbm, ⟨60, _⟩ => ⟨S1700000x64, .f32⟩
  | .hbm, ⟨61, _⟩ => ⟨S_, .f32⟩
  | .hbm, ⟨62, _⟩ => ⟨S100000x64, .f32⟩
  | .hbm, ⟨63, _⟩ => ⟨S1700000x1, .i32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S_, .f32⟩
  | .hbm, ⟨69, _⟩ => ⟨S100000x64, .f32⟩
  | .hbm, ⟨70, _⟩ => ⟨S100000x64, .f32⟩
  | .hbm, ⟨71, _⟩ => ⟨S100000x64, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000, .f32⟩
  | .hbm, ⟨81, _⟩ => ⟨S_, .i32⟩
  | .hbm, ⟨82, _⟩ => ⟨S1700000, .i32⟩
  | .hbm, ⟨83, _⟩ => ⟨S1700000, .i1⟩
  | .hbm, ⟨84, _⟩ => ⟨S_, .i32⟩
  | .hbm, ⟨85, _⟩ => ⟨S1700000, .i32⟩
  | .hbm, ⟨86, _⟩ => ⟨S1700000, .i32⟩
  | .hbm, ⟨87, _⟩ => ⟨S1700000, .i32⟩
  | .hbm, ⟨88, _⟩ => ⟨S1700000x1, .i32⟩
  | .hbm, ⟨89, _⟩ => ⟨S1700000, .f32⟩
  | .hbm, ⟨90, _⟩ => ⟨S1700000, .f32⟩
  | .hbm, ⟨91, _⟩ => ⟨S_, .i32⟩
  | .hbm, ⟨92, _⟩ => ⟨S1700000, .i32⟩
  | .hbm, ⟨93, _⟩ => ⟨S1700000, .i1⟩
  | .hbm, ⟨94, _⟩ => ⟨S_, .i32⟩
  | .hbm, ⟨95, _⟩ => ⟨S1700000, .i32⟩
  | .hbm, ⟨96, _⟩ => ⟨S1700000, .i32⟩
  | .hbm, ⟨97, _⟩ => ⟨S1700000, .i32⟩
  | .hbm, ⟨98, _⟩ => ⟨S1700000x1, .i32⟩
  | .hbm, ⟨99, _⟩ => ⟨S1700000x64, .f32⟩
  | .hbm, ⟨100, _⟩ => ⟨S1700000x1, .f32⟩
  | .hbm, ⟨101, _⟩ => ⟨S1700000x64, .f32⟩
  | .hbm, ⟨102, _⟩ => ⟨S1700000x64, .f32⟩
  | .hbm, ⟨103, _⟩ => ⟨S_, .f32⟩
  | .hbm, ⟨104, _⟩ => ⟨S100000x64, .f32⟩
  | .hbm, ⟨105, _⟩ => ⟨S1700000x1, .i32⟩
  | .hbm, ⟨106, _⟩ => ⟨S100000x64, .f32⟩
  | .hbm, ⟨107, _⟩ => ⟨S1x64, .f32⟩
  | .hbm, ⟨108, _⟩ => ⟨S100000x64, .f32⟩
  | .hbm, ⟨109, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_c_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_c_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_9 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_call0_cst : Ref sig .tc := ⟨.hbm, 68, rfl⟩
abbrev main_call0_v0 : Ref sig .tc := ⟨.hbm, 69, rfl⟩
abbrev main_v50 : Ref sig .tc := ⟨.hbm, 70, rfl⟩
abbrev main_v51 : Ref sig .tc := ⟨.hbm, 71, rfl⟩
abbrev main_c_10 : Ref sig .tc := ⟨.hbm, 72, rfl⟩
abbrev main_v52 : Ref sig .tc := ⟨.hbm, 73, rfl⟩
abbrev main_v53 : Ref sig .tc := ⟨.hbm, 74, rfl⟩
abbrev main_c_11 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_c_12 : Ref sig .tc := ⟨.hbm, 81, rfl⟩
abbrev main_v59 : Ref sig .tc := ⟨.hbm, 82, rfl⟩
abbrev main_v60 : Ref sig .tc := ⟨.hbm, 83, rfl⟩
abbrev main_c_13 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_c_14 : Ref sig .tc := ⟨.hbm, 91, rfl⟩
abbrev main_v67 : Ref sig .tc := ⟨.hbm, 92, rfl⟩
abbrev main_v68 : Ref sig .tc := ⟨.hbm, 93, rfl⟩
abbrev main_c_15 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_16 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  dot_S100000x64_S64x64_S100000x64_1_0_0_1_n_n_wf : DotDims.WF S100000x64 S64x64 S100000x64 [1] [0] [0] [1] [] []
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.LibGS.lean ====
/-
  General facts about the host's row gather and accumulating row scatter, and about extended reals:
  a finite sum times a non-negative finite factor distributes; the reciprocal square root of a number at least
  one is a non-negative finite number; a row gather reads the table's row at the clamped start index; an update
  that a row scatter lands on an operand element has that element's row as its start index and the same column;
  an in-range word is its own wrap and its own clamp.
-/
import Idealize.ShloMosaic.PureOps.Ideal
import Idealize.ShloMosaic.PureOps.Ideal.Laws
import Idealize.ShloMosaic.Lib.ValueIdx
import Idealize.ShloMosaic.Lib.IdealHost
import Idealize.ShloMosaic.Lib.StableHlo.Predicate
import Mathlib.Data.EReal.Operations

noncomputable section

namespace Cert.LibGS

open Idealize.ShloMosaic Idealize.ShloMosaic.ValueIdx
open scoped BigOperators

/-! ## Extended reals -/

/-- A finite sum times a non-negative finite factor distributes. -/
theorem sum_mul_const {ι : Type} [DecidableEq ι] (S : Finset ι) (f : ι → EReal) (D : EReal) (h0 : 0 ≤ D) (ht : D ≠ ⊤) :
    (∑ j ∈ S, f j) * D = ∑ j ∈ S, f j * D := by
  induction S using Finset.induction_on with
  | empty => simp
  | insert a S ha ih =>
    rw [Finset.sum_insert ha, Finset.sum_insert ha, EReal.right_distrib_of_nonneg_of_ne_top h0 ht, ih]

/-- The reciprocal square root of something at least one is a non-negative finite number. -/
theorem rsqrt_bounds (x : EReal) (h : 1 ≤ x) : 0 ≤ Ideal.rsqrt x ∧ Ideal.rsqrt x ≠ ⊤ := by
  induction x using EReal.rec with
  | bot =>
    have hlt : (⊥ : EReal) < 1 := by exact_mod_cast EReal.bot_lt_coe (1 : ℝ)
    exact absurd h (not_le.mpr hlt)
  | top => simp
  | coe r =>
    have hr : (1 : ℝ) ≤ r := by exact_mod_cast h
    have h1 : ¬ r < 0 := by linarith
    have h2 : ¬ r = 0 := by linarith
    rw [Ideal.rsqrt_coe, if_neg h1, if_neg h2]
    refine ⟨?_, EReal.coe_ne_top _⟩
    exact_mod_cast inv_nonneg.mpr (Real.sqrt_nonneg r)

/-! ## The accumulating scatter, unfolded -/

/-- The accumulating scatter at the ideal values: each operand element plus the sum of the updates landing on it. -/
theorem scatterAdd_apply {s si u : Shape} {φ : FTy} {w : Nat} (d : ScatterDims s si u) (x : FVec Ideal s φ) (idx : IVec si w)
    (upd : FVec Ideal u φ) (i : s.Idx) :
    Host.scatterAdd (F := Ideal) d x idx upd i = x i + ∑ j ∈ Finset.univ.filter (fun j => d.resultIdx? j idx = some i), upd j := rfl

/-! ## Lists with one entry -/

/-- Every entry of a one-entry list is that entry. -/
theorem getElem_of_eq_singleton {α : Type} {l : List α} {a : α} (h : l = [a]) (k : Nat) (hk : k < l.length) : l[k] = a := by
  subst h
  have hk0 : k = 0 := by simpa using hk
  subst hk0; rfl

/-! ## The row gather -/

/-- The row gather read at (p, q): for an [N, C] table and an [n, 1] column of start indices (the result's axis 1 the
    offset axis, the table's axis 0 collapsed and named by the start index map, the index vector on axis 1), the table's
    entry at column q of the row that position p's start index names, read signed and clamped into [0, N - 1]. -/
theorem gather_rows {α : Type} {N n C w : Nat} (d : GatherDims ⟨2, ![N, C]⟩ ⟨2, ![n, 1]⟩ ⟨2, ![n, C]⟩)
    (hoff : d.offsetDims = [1]) (hcoll : d.collapsedSliceDims = [0]) (hob : d.operandBatchingDims = []) (hsim : d.startIndexMap = [0]) (hivd : d.indexVectorDim = 1)
    (x : (⟨2, ![N, C]⟩ : Shape).Idx → α) (idx : IVec ⟨2, ![n, 1]⟩ w) (p : Fin n) (q : Fin C) (hN : 0 < N) :
    Host.gather d x idx (ix2 p q) = x (ix2 (⟨min (idx (ix2 p (0 : Fin 1))).toInt.toNat (N - 1), by omega⟩ : Fin N) q) := by
  have hb : ∀ a : Fin 2, a ∉ d.operandBatchingDims := by intro a; rw [hob]; exact List.not_mem_nil
  have hbd : d.batchDims = [0] := by
    show Shape.kept _ d.offsetDims = [0]
    rw [hoff]; rfl
  -- the row: the start index of position p, read signed and clamped
  have h0 : (d.operandIdx (ix2 p q) idx (0 : Fin 2)).val = min (idx (ix2 p (0 : Fin 1))).toInt.toNat (N - 1) := by
    have hk : (0 : Fin 2) ∉ d.sKept := by rw [GatherDims.mem_sKept, hcoll]; simp
    have hm : (0 : Fin 2) ∈ d.startIndexMap := by rw [hsim]; exact List.mem_singleton.mpr rfl
    have hsl : d.sliceSizes (0 : Fin 2) = 1 := d.slice_collapsed 0 (by rw [hcoll]; exact List.mem_singleton.mpr rfl)
    simp only [GatherDims.operandIdx, GatherDims.batchCoord_eq_zero _ _ _ (hb _), GatherDims.offCoord_eq_zero _ _ _ hk,
      Nat.add_zero, GatherDims.start, dif_pos hm]
    show min (idx _).toInt.toNat (N - d.sliceSizes (0 : Fin 2)) = min (idx (ix2 p 0)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      rw [getElem_of_eq_singleton hbd]
      rfl
    | ⟨1, _⟩ =>
      unfold GatherDims.siIdx
      rw [dif_pos (by rw [hivd])]
      apply Fin.ext
      show List.idxOf (0 : Fin 2) d.startIndexMap = 0
      rw [hsim]; simp
  -- the column: the result's own column
  have h1 : (d.operandIdx (ix2 p q) idx (1 : Fin 2)).val = q.val := by
    have hk : (1 : Fin 2) ∈ d.sKept := by rw [GatherDims.mem_sKept, hcoll, hob]; simp
    have hm : (1 : Fin 2) ∉ d.startIndexMap := by rw [hsim]; simp
    simp only [GatherDims.operandIdx, GatherDims.batchCoord_eq_zero _ _ _ (hb _), Nat.add_zero, GatherDims.start, dif_neg hm,
      Nat.zero_add]
    unfold GatherDims.offCoord
    rw [dif_pos hk, getElem_of_eq_singleton hoff]
    rfl
  unfold Host.gather
  congr 1
  funext a
  apply Fin.ext
  match a with
  | ⟨0, _⟩ => exact h0
  | ⟨1, _⟩ => exact h1

/-! ## Where a row scatter lands -/

/-- Where a row scatter lands: for an [N, C] operand, an [n, 1] column of scatter indices and [n, C] updates (the
    updates' axis 1 the window axis, the operand's axis 0 inserted and named by the scatter map, the index vector on
    axis 1), if update j lands on operand index i then the start index of j's row, read signed, is i's row, and the
    two columns agree. -/
theorem scatter_rows_lands {N n C w : Nat} (d : ScatterDims ⟨2, ![N, C]⟩ ⟨2, ![n, 1]⟩ ⟨2, ![n, C]⟩)
    (huw : d.updateWindowDims = [1]) (hins : d.insertedWindowDims = [0]) (hsd : d.scatterDimsToOperandDims = [0]) (hivd : d.indexVectorDim = 1)
    (idx : IVec ⟨2, ![n, 1]⟩ w) (j : (⟨2, ![n, C]⟩ : Shape).Idx) (i : (⟨2, ![N, C]⟩ : Shape).Idx) (h : d.resultIdx? j idx = some i) :
    (idx (ix2 (⟨(j 0).val, (j 0).isLt⟩ : Fin n) (0 : Fin 1))).toInt = ((i 0).val : Int) ∧ (j 1).val = (i 1).val := by
  have hsk : d.sKept = [1] := by
    show Shape.kept _ d.insertedWindowDims = [1]
    rw [hins]; rfl
  have hus : d.uScatter = [0] := by
    show Shape.kept _ d.updateWindowDims = [0]
    rw [huw]; rfl
  -- axis 0: the start is the start index of j's row, the window coordinate is zero
  have hw0 : d.window j (0 : Fin 2) = 0 := by
    unfold ScatterDims.window
    rw [dif_neg (by rw [hsk]; simp)]
  have hs0 : d.start j idx (0 : Fin 2) = (idx (ix2 (⟨(j 0).val, (j 0).isLt⟩ : Fin n) (0 : Fin 1))).toInt := by
    have hm : (0 : Fin 2) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      rw [getElem_of_eq_singleton hus]
    | ⟨1, _⟩ =>
      unfold ScatterDims.siIdx
      rw [dif_pos (by rw [hivd])]
      apply Fin.ext
      show List.idxOf (0 : Fin 2) d.scatterDimsToOperandDims = 0
      rw [hsd]; simp
  -- axis 1: the start is zero, the window coordinate is j's column
  have hw1 : d.window j (1 : Fin 2) = (j 1).val := by
    have hk : (1 : Fin 2) ∈ d.sKept := by rw [hsk]; exact List.mem_singleton.mpr rfl
    unfold ScatterDims.window
    rw [dif_pos hk, getElem_of_eq_singleton huw]
  have hs1 : d.start j idx (1 : Fin 2) = 0 := by
    unfold ScatterDims.start
    rw [dif_neg (by rw [hsd]; simp)]
  unfold ScatterDims.resultIdx? at h
  split at h
  · rename_i hall
    have hi := Option.some.inj h
    subst hi
    have h0 := hall (0 : Fin 2)
    rw [hs0, hw0] at h0
    constructor
    · show _ = (((d.start j idx (0 : Fin 2) + d.window j (0 : Fin 2)).toNat : Nat) : Int)
      rw [hs0, hw0]
      omega
    · show _ = (d.start j idx (1 : Fin 2) + d.window j (1 : Fin 2)).toNat
      rw [hs1, hw1]
      omega
  · exact absurd h (by simp)

/-! ## In-range words -/

/-- A word that reads non-negative as a signed number is left alone by the wrap "if a < 0 then a + N else a". -/
theorem wrap_of_nonneg (a : BitVec 32) (Nw : BitVec 32) (h : 0 ≤ a.toInt) :
    Scalar.select (IntOp.cmpi .slt a 0#32) (IntOp.addi a Nw) a = a := by
  have hs : a.slt 0#32 = false := by
    simp only [BitVec.slt, BitVec.toInt_zero]
    exact decide_eq_false (by omega)
  have hc : IntOp.cmpi .slt a 0#32 = 0#1 := by
    unfold IntOp.cmpi
    show BitVec.ofBool (a.slt 0#32) = 0#1
    rw [hs]; rfl
  unfold Scalar.select
  rw [hc, if_neg (by decide)]

/-- A word whose signed value is k < N is its own clamp into [0, N - 1]. -/
theorem clamp_of_inrange (a : BitVec 32) (N k : Nat) (hk : a.toInt = (k : Int)) (hkN : k < N) : min a.toInt.toNat (N - 1) = k := by
  rw [hk, Int.toNat_natCast]; omega

/-! ## The two constants -/

/-- The single-precision patterns of zero and of one are the extended reals zero and one. -/
theorem zero_f32 : Ideal.ofBits .f32 0x00000000#32 = 0 := Ideal.ofBits_zero_f32
theorem one_f32 : Ideal.ofBits .f32 0x3F800000#32 = 1 := Ideal.ofBits_one_f32

end Cert.LibGS

end
-- ==== Proof.GcnLaw.lean ====
/-
  The algebra of one graph-convolution layer on the extended reals.

  A layer aggregates, for every node r, the feature rows of the edges that land on r, each scaled by the edge's weight,
  and multiplies by a dense matrix. Over real numbers the two orders agree:
    sum_k (sum_{e lands on r} feat[src e, k] * n e) * w[k, q]  =  sum_{e lands on r} (sum_k feat[src e, k] * w[k, q]) * n e
  (distributivity and exchanging two finite sums). On the extended reals distributivity fails at the infinities, so the
  law is stated for real-valued features, weights and matrix entries.
-/
import proofs.«159949_j16260746182861_1_alg».proof.Proof.LibGS

noncomputable section

namespace Cert.GcnLaw

open Idealize.ShloMosaic Idealize.ShloMosaic.ValueIdx
open scoped BigOperators

/-! ## Real-valued extended reals -/

/-- An extended real that is a real number. -/
def IsReal (a : EReal) : Prop := ∃ r : ℝ, a = (r : EReal)

theorem isReal_zero : IsReal 0 := ⟨0, rfl⟩
theorem isReal_one : IsReal 1 := ⟨1, rfl⟩
theorem isReal_coe (r : ℝ) : IsReal (r : EReal) := ⟨r, rfl⟩
theorem IsReal.add {a b : EReal} (ha : IsReal a) (hb : IsReal b) : IsReal (a + b) := by
  obtain ⟨x, rfl⟩ := ha
  obtain ⟨y, rfl⟩ := hb
  exact ⟨x + y, (EReal.coe_add x y).symm⟩
theorem IsReal.mul {a b : EReal} (ha : IsReal a) (hb : IsReal b) : IsReal (a * b) := by
  obtain ⟨x, rfl⟩ := ha
  obtain ⟨y, rfl⟩ := hb
  exact ⟨x * y, (EReal.coe_mul x y).symm⟩
theorem IsReal.max {a b : EReal} (ha : IsReal a) (hb : IsReal b) : IsReal (max a b) := by
  rcases le_total a b with h | h
  · rw [max_eq_right h]; exact hb
  · rw [max_eq_left h]; exact ha
theorem isReal_sum {ι : Type} (S : Finset ι) (f : ι → EReal) (h : ∀ j ∈ S, IsReal (f j)) : IsReal (∑ j ∈ S, f j) := by
  classical
  induction S using Finset.induction_on with
  | empty => rw [Finset.sum_empty]; exact isReal_zero
  | insert a S ha ih =>
    rw [Finset.sum_insert ha]
    exact IsReal.add (h a (Finset.mem_insert_self a S)) (ih fun j hj => h j (Finset.mem_insert_of_mem hj))
/-- A real base to a real exponent is a real number (whatever the signs: the power is Mathlib's real power). -/
theorem IsReal.pow {a b : EReal} (ha : IsReal a) (hb : IsReal b) : IsReal (Ideal.pow a b) := by
  obtain ⟨x, rfl⟩ := ha
  obtain ⟨y, rfl⟩ := hb
  exact ⟨Real.rpow x y, rfl⟩
/-- The single-precision patterns of 0, 1 and -1/2 are real numbers. -/
theorem isReal_zero_f32 : IsReal (Ideal.ofBits .f32 0x00000000#32) := by
  rw [Ideal.ofBits_zero_f32]; exact isReal_zero
theorem isReal_one_f32 : IsReal (Ideal.ofBits .f32 0x3F800000#32) := by
  rw [Ideal.ofBits_one_f32]; exact isReal_one
theorem isReal_neg_half_f32 : IsReal (Ideal.ofBits .f32 0xBF000000#32) := by
  show ∃ r : ℝ, Ideal.ieee 8 23 (0xBF000000#32 : BitVec 32) = (r : EReal)
  unfold Ideal.ieee
  dsimp only
  rw [if_neg (by decide), if_neg (by decide)]
  exact ⟨_, rfl⟩

/-- Every entry of a gather is an entry of its operand. -/
theorem isReal_gather {s si so : Shape} {φ : FTy} {w : Nat} (d : GatherDims s si so) (x : FVec Ideal s φ) (idx : IVec si w)
    (hx : ∀ i, IsReal (x i)) (j : so.Idx) : IsReal (Host.gather d x idx j) := hx _

/-- An accumulating scatter of real updates into a real operand is real. -/
theorem isReal_scatterAdd {s si u : Shape} {φ : FTy} {w : Nat} (d : ScatterDims s si u) (x : FVec Ideal s φ) (idx : IVec si w)
    (upd : FVec Ideal u φ) (hx : ∀ i, IsReal (x i)) (hu : ∀ j, IsReal (upd j)) (i : s.Idx) :
    IsReal (Host.scatterAdd (F := Ideal) d x idx upd i) := by
  rw [Cert.LibGS.scatterAdd_apply]
  exact IsReal.add (hx i) (isReal_sum _ _ fun j _ => hu j)

/-! ## The row scatter read at an element -/

/-- The start and the window coordinate of a row scatter on each operand axis. -/
theorem scatter_rows_coords {N n C w : Nat} (d : ScatterDims ⟨2, ![N, C]⟩ ⟨2, ![n, 1]⟩ ⟨2, ![n, C]⟩)
    (huw : d.updateWindowDims = [1]) (hins : d.insertedWindowDims = [0]) (hsd : d.scatterDimsToOperandDims = [0]) (hivd : d.indexVectorDim = 1)
    (idx : IVec ⟨2, ![n, 1]⟩ w) (e : Fin n) (q' : Fin C) :
    d.start (ix2 e q') idx (0 : Fin 2) = (idx (ix2 e (0 : Fin 1))).toInt ∧ d.window (ix2 e q') (0 : Fin 2) = 0 ∧
      d.start (ix2 e q') idx (1 : Fin 2) = 0 ∧ d.window (ix2 e q') (1 : Fin 2) = q'.val := by
  have hsk : d.sKept = [1] := by
    show Shape.kept _ d.insertedWindowDims = [1]
    rw [hins]; rfl
  have hus : d.uScatter = [0] := by
    show Shape.kept _ d.updateWindowDims = [0]
    rw [huw]; rfl
  refine ⟨?_, ?_, ?_, ?_⟩
  · have hm : (0 : Fin 2) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      rw [Cert.LibGS.getElem_of_eq_singleton hus]
      rfl
    | ⟨1, _⟩ =>
      unfold ScatterDims.siIdx
      rw [dif_pos (by rw [hivd])]
      apply Fin.ext
      show List.idxOf (0 : Fin 2) d.scatterDimsToOperandDims = 0
      rw [hsd]; simp
  · unfold ScatterDims.window
    rw [dif_neg (by rw [hsk]; simp)]
  · unfold ScatterDims.start
    rw [dif_neg (by rw [hsd]; simp)]
  · have hk : (1 : Fin 2) ∈ d.sKept := by rw [hsk]; exact List.mem_singleton.mpr rfl
    unfold ScatterDims.window
    rw [dif_pos hk, Cert.LibGS.getElem_of_eq_singleton huw]
    rfl

/-- Update (e, q') of a row scatter lands on operand element (r, q) exactly when the scatter index of row e, read
    signed, is r and the columns agree. -/
theorem scatter_rows_lands_iff {N n C w : Nat} (d : ScatterDims ⟨2, ![N, C]⟩ ⟨2, ![n, 1]⟩ ⟨2, ![n, C]⟩)
    (huw : d.updateWindowDims = [1]) (hins : d.insertedWindowDims = [0]) (hsd : d.scatterDimsToOperandDims = [0]) (hivd : d.indexVectorDim = 1)
    (idx : IVec ⟨2, ![n, 1]⟩ w) (e : Fin n) (q' : Fin C) (r : Fin N) (q : Fin C) :
    d.resultIdx? (ix2 e q') idx = some (ix2 r q) ↔ ((idx (ix2 e (0 : Fin 1))).toInt = (r.val : Int) ∧ q' = q) := by
  constructor
  · intro h
    have h' := Cert.LibGS.scatter_rows_lands d huw hins hsd hivd idx (ix2 e q') (ix2 r q) h
    exact ⟨h'.1, Fin.ext h'.2⟩
  · rintro ⟨hr, rfl⟩
    obtain ⟨hs0, hw0, hs1, hw1⟩ := scatter_rows_coords d huw hins hsd hivd idx e q'
    have hr' := r.isLt
    have hq' := q'.isLt
    have hall : ∀ a, 0 ≤ d.start (ix2 e q') idx a + d.window (ix2 e q') a ∧
        d.start (ix2 e q') idx a + d.window (ix2 e q') a < (⟨2, ![N, C]⟩ : Shape).size a := by
      rw [Fin.forall_fin_two]
      refine ⟨?_, ?_⟩
      · rw [hs0, hw0, hr]
        show 0 ≤ (r.val : Int) + ((0 : Nat) : Int) ∧ (r.val : Int) + ((0 : Nat) : Int) < ((N : Nat) : Int)
        omega
      · rw [hs1, hw1]
        show 0 ≤ (0 : Int) + ((q'.val : Nat) : Int) ∧ (0 : Int) + ((q'.val : Nat) : Int) < ((C : Nat) : Int)
        omega
    unfold ScatterDims.resultIdx?
    rw [dif_pos hall]
    congr 1
    funext a
    apply Fin.ext
    match a with
    | ⟨0, _⟩ =>
      show (d.start (ix2 e q') idx (0 : Fin 2) + d.window (ix2 e q') (0 : Fin 2)).toNat = r.val
      rw [hs0, hw0, hr]; omega
    | ⟨1, _⟩ =>
      show (d.start (ix2 e q') idx (1 : Fin 2) + d.window (ix2 e q') (1 : Fin 2)).toNat = q'.val
      rw [hs1, hw1]; omega

/-- The accumulating row scatter at (r, q): the operand's entry plus, over the update rows e whose scatter index,
    read signed, is r, the update's entry at column q. -/
theorem scatter_rows_apply {N n C w : Nat} {φ : FTy} (d : ScatterDims ⟨2, ![N, C]⟩ ⟨2, ![n, 1]⟩ ⟨2, ![n, C]⟩)
    (huw : d.updateWindowDims = [1]) (hins : d.insertedWindowDims = [0]) (hsd : d.scatterDimsToOperandDims = [0]) (hivd : d.indexVectorDim = 1)
    (z : FVec Ideal ⟨2, ![N, C]⟩ φ) (idx : IVec ⟨2, ![n, 1]⟩ w) (u : FVec Ideal ⟨2, ![n, C]⟩ φ) (r : Fin N) (q : Fin C) :
    Host.scatterAdd (F := Ideal) d z idx u (ix2 r q)
      = z (ix2 r q) + ∑ e : Fin n, if (idx (ix2 e (0 : Fin 1))).toInt = (r.val : Int) then u (ix2 e q) else 0 := by
  rw [Cert.LibGS.scatterAdd_apply, Finset.sum_filter, ValueIdx.sum_idx2]
  congr 1
  refine Finset.sum_congr rfl fun e _ => ?_
  rw [Finset.sum_congr rfl fun q' _ => if_congr (scatter_rows_lands_iff d huw hins hsd hivd idx e q' r q) rfl rfl]
  by_cases hc : (idx (ix2 e (0 : Fin 1))).toInt = (r.val : Int)
  · rw [if_pos hc]
    simp only [hc, true_and]
    rw [Finset.sum_ite_eq']
    simp
  · rw [if_neg hc]
    simp only [hc, false_and, if_false]
    exact Finset.sum_const_zero

/-! ## Aggregating then multiplying is multiplying then aggregating -/

/-- The coercion of a finite sum of reals is the sum of the coercions. -/
theorem coe_sum {ι : Type} (S : Finset ι) (f : ι → ℝ) : ((∑ i ∈ S, f i : ℝ) : EReal) = ∑ i ∈ S, (f i : EReal) := by
  classical
  induction S using Finset.induction_on with
  | empty => rfl
  | insert a S ha ih => rw [Finset.sum_insert ha, Finset.sum_insert ha, EReal.coe_add, ih]

/-- One layer's law. `feat` the node features, `fw` their product with the matrix `w`, `nb` the edge weights laid out
    over the edge rows (the same in every column), `ri` the gather's start indices, `ci` the scatter's indices, `z` the
    zero array: the aggregated features times `w`, at (r, q), are the aggregate of `fw` at (r, q). -/
theorem agg_then_dense {N n C w : Nat} (ds : ScatterDims ⟨2, ![N, C]⟩ ⟨2, ![n, 1]⟩ ⟨2, ![n, C]⟩)
    (huw : ds.updateWindowDims = [1]) (hins : ds.insertedWindowDims = [0]) (hsd : ds.scatterDimsToOperandDims = [0]) (hivd : ds.indexVectorDim = 1)
    (dg : GatherDims ⟨2, ![N, C]⟩ ⟨2, ![n, 1]⟩ ⟨2, ![n, C]⟩)
    (hoff : dg.offsetDims = [1]) (hcoll : dg.collapsedSliceDims = [0]) (hob : dg.operandBatchingDims = []) (hsim : dg.startIndexMap = [0]) (hgivd : dg.indexVectorDim = 1)
    (hN : 0 < N)
    (z : FVec Ideal ⟨2, ![N, C]⟩ .f32) (hz : ∀ i, z i = 0)
    (feat fw : FVec Ideal ⟨2, ![N, C]⟩ .f32) (wm : FVec Ideal ⟨2, ![C, C]⟩ .f32)
    (ci ri : IVec ⟨2, ![n, 1]⟩ w) (nb : FVec Ideal ⟨2, ![n, C]⟩ .f32)
    (hfeat : ∀ i, IsReal (feat i)) (hw : ∀ i, IsReal (wm i)) (hnb : ∀ i, IsReal (nb i))
    (hcol : ∀ (e : Fin n) (q q' : Fin C), nb (ix2 e q) = nb (ix2 e q'))
    (hfw : ∀ (r : Fin N) (q : Fin C), fw (ix2 r q) = ∑ k : Fin C, feat (ix2 r k) * wm (ix2 k q))
    (r : Fin N) (q : Fin C) :
    ∑ k : Fin C, Host.scatterAdd (F := Ideal) ds z ci (mulf (Host.gather dg feat ri) nb) (ix2 r k) * wm (ix2 k q)
      = Host.scatterAdd (F := Ideal) ds z ci (mulf (Host.gather dg fw ri) nb) (ix2 r q) := by
  classical
  -- real witnesses of the features, the matrix and the edge weights
  choose F hF using hfeat
  choose W hW using hw
  choose B hB using hnb
  -- the source row of edge row e: its start index, read signed and clamped
  have hsrc : ∀ e : Fin n, min (ri (ix2 e (0 : Fin 1))).toInt.toNat (N - 1) < N := fun e => by omega
  have hG : ∀ (g : FVec Ideal ⟨2, ![N, C]⟩ .f32) (e : Fin n) (k : Fin C),
      Host.gather dg g ri (ix2 e k) = g (ix2 (⟨min (ri (ix2 e (0 : Fin 1))).toInt.toNat (N - 1), hsrc e⟩ : Fin N) k) :=
    fun g e k => Cert.LibGS.gather_rows dg hoff hcoll hob hsim hgivd g ri e k hN
  -- the aggregated features at (r, k), as a real number
  have hL : ∀ k : Fin C, Host.scatterAdd (F := Ideal) ds z ci (mulf (Host.gather dg feat ri) nb) (ix2 r k)
      = ((∑ e : Fin n, if (ci (ix2 e (0 : Fin 1))).toInt = (r.val : Int)
          then F (ix2 (⟨min (ri (ix2 e (0 : Fin 1))).toInt.toNat (N - 1), hsrc e⟩ : Fin N) k) * B (ix2 e q) else 0 : ℝ) : EReal) := by
    intro k
    rw [scatter_rows_apply ds huw hins hsd hivd, hz, zero_add, coe_sum]
    refine Finset.sum_congr rfl fun e _ => ?_
    by_cases hc : (ci (ix2 e (0 : Fin 1))).toInt = (r.val : Int)
    · rw [if_pos hc, if_pos hc, mulf_apply, hG, hF, hcol e k q, hB, EReal.coe_mul]
    · rw [if_neg hc, if_neg hc]; rfl
  -- the aggregate of the products at (r, q), as a real number
  have hR : Host.scatterAdd (F := Ideal) ds z ci (mulf (Host.gather dg fw ri) nb) (ix2 r q)
      = ((∑ e : Fin n, if (ci (ix2 e (0 : Fin 1))).toInt = (r.val : Int)
          then (∑ k : Fin C, F (ix2 (⟨min (ri (ix2 e (0 : Fin 1))).toInt.toNat (N - 1), hsrc e⟩ : Fin N) k) * W (ix2 k q)) * B (ix2 e q)
          else 0 : ℝ) : EReal) := by
    rw [scatter_rows_apply ds huw hins hsd hivd, hz, zero_add, coe_sum]
    refine Finset.sum_congr rfl fun e _ => ?_
    by_cases hc : (ci (ix2 e (0 : Fin 1))).toInt = (r.val : Int)
    · rw [if_pos hc, if_pos hc, mulf_apply, hG, hfw, hB, EReal.coe_mul, coe_sum]
      congr 1
      refine Finset.sum_congr rfl fun k _ => ?_
      rw [hF, hW, EReal.coe_mul]
    · rw [if_neg hc, if_neg hc]; rfl
  rw [hR, Finset.sum_congr rfl fun k _ => by rw [hL k, hW (ix2 k q), ← EReal.coe_mul], ← coe_sum]
  congr 1
  -- in the reals: distribute, exchange the two sums, compare edge by edge
  rw [Finset.sum_congr rfl fun k _ => Finset.sum_mul _ _ _, Finset.sum_comm]
  refine Finset.sum_congr rfl fun e _ => ?_
  by_cases hc : (ci (ix2 e (0 : Fin 1))).toInt = (r.val : Int)
  · simp only [if_pos hc]
    rw [Finset.sum_mul]
    exact Finset.sum_congr rfl fun k _ => by ring
  · simp only [if_neg hc, zero_mul]
    exact Finset.sum_const_zero

end Cert.GcnLaw

end
-- ==== Proof.FiniteInputs.lean ====
/-
  The precondition, opened: every float input holds real numbers.

  The precondition's predicate is the conjunction, over the five float inputs, of "every entry's absolute value is below
  plus infinity"; on the extended reals that says every entry is neither infinity, so it is a real number.
-/
import proofs.«159949_j16260746182861_1_alg».proof.Pre_finite_inputs
import proofs.«159949_j16260746182861_1_alg».proof.Proof.Gen.Pre_finite_inputs
import proofs.«159949_j16260746182861_1_alg».proof.Proof.GcnLaw
import Idealize.ShloMosaic.Lib.ReduceAll

noncomputable section

namespace Cert.Pre_finite_inputs.Finite

open Cert.Pre_finite_inputs Cert.GcnLaw
open Idealize.ShloMosaic Idealize.ShloMosaic.ValueIdx

/-- The scalar shape has one index. -/
local instance : Subsingleton S_.Idx := ⟨fun a b => funext fun d => d.elim0⟩

/-- An extended real whose absolute value is strictly below plus infinity is a real number: it is neither infinity. -/
theorem isReal_of_abs_lt (x : Ideal .f32)
    (h : FloatOps.cmpf (F := Ideal) .olt (FloatOps.hostAbsf x) (FloatOps.ofBits .f32 0x7F800000#32) = 1#1) : IsReal x := by
  have htop : Ideal.ofBits .f32 0x7F800000#32 = (⊤ : EReal) := by simp [Ideal.ofBits, Ideal.ieee]
  have hlt : max (x : EReal) (-x) < ⊤ := by
    have h' : BitVec.ofBool (decide (max (x : EReal) (-x) < Ideal.ofBits .f32 0x7F800000#32)) = 1#1 := h
    rw [htop] at h'
    by_contra hn
    rw [decide_eq_false hn] at h'
    exact absurd h' (by decide)
  induction x using EReal.rec with
  | bot => exact absurd hlt (by simp)
  | coe r => exact ⟨r, rfl⟩
  | top => exact absurd hlt (by simp)

/-- One conjunct of the precondition: the reduction by "and" over all axes of the entrywise test "absolute value below
    plus infinity" came out true, so every entry is a real number. -/
theorem all_real {s : Shape} {axes : List (Fin s.rank)} (x : FVec Ideal s .f32) (hb : S_.BroadcastsInDim s (![] : Fin 0 → Fin s.rank))
    (hr : s.ReducesTo axes S_) (hu : 0 < S_.numel) (init : IVec S_ 1)
    (e : Host.reduce IntOp.andi (cmpf .olt (Host.absf x) (broadcastInDim s ![] hb (constant S_ .f32 0x7F800000#32))) init hr hu ix0 = 1#1)
    (i : s.Idx) : IsReal (x i) :=
  isReal_of_abs_lt (x i) (Host.reduce_andi_all _ init hr hu ix0 e i)

/-- Under the precondition every entry of every float input is a real number. -/
theorem real_of_pre (a0 : FVec Ideal S100000x64 .f32) (a1 : IVec S2x1600000 32) (a2 : FVec Ideal S64x64 .f32) (a3 : FVec Ideal S64 .f32)
    (a4 : FVec Ideal S64x64 .f32) (a5 : FVec Ideal S64 .f32)
    (h : Cert.Pre_finite_inputs.fn (F := Ideal) a0 a1 a2 a3 a4 a5 = fun _ => 1#1) :
    (∀ i, IsReal (a0 i)) ∧ (∀ i, IsReal (a2 i)) ∧ (∀ i, IsReal (a3 i)) ∧ (∀ i, IsReal (a4 i)) ∧ (∀ i, IsReal (a5 i)) := by
  have h0 := congrFun h ix0
  dsimp only [Cert.Pre_finite_inputs.fn, Cert.Pre_finite_inputs.fn_part1] at h0
  obtain ⟨h0123, h5⟩ := IntOp.andi_eq_one.1 h0
  obtain ⟨h012, h4⟩ := IntOp.andi_eq_one.1 h0123
  obtain ⟨h01, h3⟩ := IntOp.andi_eq_one.1 h012
  obtain ⟨h00, h2⟩ := IntOp.andi_eq_one.1 h01
  exact ⟨all_real a0 _ _ _ _ h00, all_real a2 _ _ _ _ h2, all_real a3 _ _ _ _ h3, all_real a4 _ _ _ _ h4, all_real a5 _ _ _ _ h5⟩

end Cert.Pre_finite_inputs.Finite

end
-- ==== Proof.KernelHost.lean ====
/-
  What the host operations of the kernel program hand to its two dense layers.

  Before the first call the host computes, from the edge list, the edge weights and the aggregate of the raw features:
  for every node the sum over the edges landing on it of the source node's feature row times the edge's weight. Between the
  calls it aggregates the first layer's output in the same way, with the same indices and weights. The index and weight
  arrays are the same operations of the edge list as the reference's, so they are named by the reference's stages.
-/
import proofs.«159949_j16260746182861_1_alg».proof.Proof.Gen.KernelIdeal.Frame
import proofs.«159949_j16260746182861_1_alg».proof.Proof.Gen.ReferenceIdeal.Read
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.HostValue

open Cert.KernelIdeal Cert.KernelIdeal.Gen
open Idealize.ShloMosaic Idealize.ShloMosaic.TcCoe Idealize.ShloMosaic.ValueIdx Idealize.SL.Sem Idealize.ShloMosaic.StableHlo
open scoped BigOperators

variable (m : (ℓ : Loc nD τ sig) → Buf (Elt Ideal) ℓ) (ρ : Dev nD → PrngReg)

/-- The aggregate of a feature array over the edge list `x1`: the accumulating row scatter, into zeros at the edges'
    targets, of the gathered source rows times the edge weights. -/
def agg (feat : FVec Ideal S100000x64 .f32) (x1 : IVec S2x1600000 32) : FVec Ideal S100000x64 .f32 :=
  Host.scatterAdd (F := Ideal) scatter_S100000x64_S1700000x1_S1700000x64_1_0_0_1 (Cert.ReferenceIdeal.Read.val_main_v44 (F := Ideal))
    (Cert.ReferenceIdeal.Read.val_main_v45 (F := Ideal) x1)
    (mulf (Host.gather gather_S100000x64_S1700000x1_S1700000x64_1_0_n_n_0_1_164 feat (Cert.ReferenceIdeal.Read.val_main_v39 (F := Ideal) x1))
      (Cert.ReferenceIdeal.Read.val_main_v42 (F := Ideal) x1))

/-! ## The index and weight buffers before the first call

  The two index columns and the edge weights are computed once, before the first call, from the edge list alone, by the
  same operations as the reference's stages: the source nodes followed by every node (a self loop each), the target nodes
  followed by every node, and for each edge the product of the inverse square roots of its two endpoints' degrees. -/

open Cert.ReferenceIdeal.Read in
/-- Before the first call the source-node buffer holds the edge list's first row followed by every node. -/
theorem W1_v3 (c : Dev nD) :
    (W1 m ρ c (Proc.devRef .tc main_v3) : (⟨S1700000, .i32⟩ : BufTy).Contents (Elt Ideal))
      = val_main_v3 (F := Ideal) (m ((c.tc : Thread nD τ).loc main_arg1)) := by
  show StableHlo.after hostOps0 (W0 m ρ c) (Proc.devRef .tc main_v3) = _
  dsimp only [hostOps0]
  after_results_simp
  rfl

open Cert.ReferenceIdeal.Read in
/-- Before the first call the target-node buffer holds the edge list's second row followed by every node. -/
theorem W1_v6 (c : Dev nD) :
    (W1 m ρ c (Proc.devRef .tc main_v6) : (⟨S1700000, .i32⟩ : BufTy).Contents (Elt Ideal))
      = val_main_v6 (F := Ideal) (m ((c.tc : Thread nD τ).loc main_arg1)) := by
  show StableHlo.after hostOps0 (W0 m ρ c) (Proc.devRef .tc main_v6) = _
  dsimp only [hostOps0]
  after_results_simp
  rfl

open Cert.ReferenceIdeal.Read in
/-- Before the first call the weight buffer holds, for each edge, the product of its endpoints' degrees to the power -1/2. -/
theorem W1_v32 (c : Dev nD) :
    (W1 m ρ c (Proc.devRef .tc main_v32) : (⟨S1700000, .f32⟩ : BufTy).Contents (Elt Ideal))
      = val_main_v33 (F := Ideal) (m ((c.tc : Thread nD τ).loc main_arg1)) := by
  show StableHlo.after hostOps0 (W0 m ρ c) (Proc.devRef .tc main_v32) = _
  dsimp only [hostOps0]
  after_results_simp
  rfl

/-! ## The first call's entry -/

/-- At the first call's entry its first operand is the aggregate of the input features. -/
theorem V1_v45 (c : Dev nD) :
    (V1 m ρ c main_v45 : S100000x64.Idx → EReal) = agg (m ((c.tc : Thread nD τ).loc main_arg0)) (m ((c.tc : Thread nD τ).loc main_arg1)) := by
  show StableHlo.after hostOps0 (W0 m ρ c) (Proc.devRef .tc main_v45) = _
  dsimp only [hostOps0]
  after_results_simp
  unfold agg
  rfl
/-- At the first call's entry the matrix is the first weight argument. -/
theorem V1_arg2 (c : Dev nD) : (V1 m ρ c main_arg2 : S64x64.Idx → EReal) = m ((c.tc : Thread nD τ).loc main_arg2) := by
  show StableHlo.after hostOps0 (W0 m ρ c) (Proc.devRef .tc main_arg2) = _
  -- no operation before the call writes the argument
  exact StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
/-- At the first call's entry the bias row is the first bias argument, read along its only row. -/
theorem V1_v46 (c : Dev nD) (q : Fin 64) :
    (V1 m ρ c main_v46 : S1x64.Idx → EReal) (ix2 (0 : Fin 1) q) = (m ((c.tc : Thread nD τ).loc main_arg3) : S64.Idx → EReal) (ix1 q) := by
  -- the buffer is the argument re-laid as one row of 64; entry (0, q) of the row is entry q of the argument
  have e : (V1 m ρ c main_v46 : S1x64.Idx → EReal)
      = shapeCast S1x64 (m ((c.tc : Thread nD τ).loc main_arg3) : S64.Idx → EReal) shapeCasts_S64_S1x64 := by
    show StableHlo.after hostOps0 (W0 m ρ c) (Proc.devRef .tc main_v46) = _
    dsimp only [hostOps0]
    after_results_simp
    rfl
  rw [e]
  exact shapeCast_a_1a_apply _ _ 0 q

/-! ## The second call's entry

  Between the calls the host aggregates the first call's result with the index and weight buffers computed before the
  first call; the first call writes none of them, so they still hold what they held at its entry. -/

/-- At the second call's entry its first operand is the aggregate of the first call's result. -/
theorem V3_v60 (c : Dev nD) :
    (V3 m ρ c main_v60 : S100000x64.Idx → EReal) = agg (V2 m ρ c main_v47) (m ((c.tc : Thread nD τ).loc main_arg1)) := by
  have h3 : W2 m ρ c (Proc.devRef .tc main_v3) = Cert.ReferenceIdeal.Read.val_main_v3 (F := Ideal) (m ((c.tc : Thread nD τ).loc main_arg1)) :=
    (W2_of_ne m ρ c main_v3 (by decide)).trans (W1_v3 m ρ c)
  have h6 : W2 m ρ c (Proc.devRef .tc main_v6) = Cert.ReferenceIdeal.Read.val_main_v6 (F := Ideal) (m ((c.tc : Thread nD τ).loc main_arg1)) :=
    (W2_of_ne m ρ c main_v6 (by decide)).trans (W1_v6 m ρ c)
  have h32 : W2 m ρ c (Proc.devRef .tc main_v32) = Cert.ReferenceIdeal.Read.val_main_v33 (F := Ideal) (m ((c.tc : Thread nD τ).loc main_arg1)) :=
    (W2_of_ne m ρ c main_v32 (by decide)).trans (W1_v32 m ρ c)
  show StableHlo.after hostOps1 (W2 m ρ c) (Proc.devRef .tc main_v60) = _
  dsimp only [hostOps1]
  after_results_simp
  rw [h3, h6, h32]
  unfold agg
  rfl
/-- At the second call's entry the matrix is the second weight argument. -/
theorem V3_arg4 (c : Dev nD) : (V3 m ρ c main_arg4 : S64x64.Idx → EReal) = m ((c.tc : Thread nD τ).loc main_arg4) :=
  -- neither stretch of host operations nor the first call writes the argument
  calc W3 m ρ c (Proc.devRef .tc main_arg4)
    _ = W2 m ρ c (Proc.devRef .tc main_arg4) := StableHlo.after_of_forall_not_mem (b := Proc.devRef .tc main_arg4) _ _ (List.forall_iff_forall_mem.mp (by
          simp only [hostOps1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = m ((c.tc : Thread nD τ).loc main_arg4) := rfl
/-- After the first call the second bias argument is still as launched. -/
theorem W2_arg5 (c : Dev nD) : W2 m ρ c (Proc.devRef .tc main_arg5) = m ((c.tc : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = m ((c.tc : Thread nD τ).loc main_arg5) := rfl
/-- At the second call's entry the bias row is the second bias argument, read along its only row. -/
theorem V3_v61 (c : Dev nD) (q : Fin 64) :
    (V3 m ρ c main_v61 : S1x64.Idx → EReal) (ix2 (0 : Fin 1) q) = (m ((c.tc : Thread nD τ).loc main_arg5) : S64.Idx → EReal) (ix1 q) := by
  have e : (V3 m ρ c main_v61 : S1x64.Idx → EReal)
      = shapeCast S1x64 (m ((c.tc : Thread nD τ).loc main_arg5) : S64.Idx → EReal) shapeCasts_S64_S1x64 := by
    show StableHlo.after hostOps1 (W2 m ρ c) (Proc.devRef .tc main_v61) = _
    dsimp only [hostOps1]
    after_results_simp
    rw [W2_arg5 m ρ c]
    rfl
  rw [e]
  exact shapeCast_a_1a_apply _ _ 0 q

/-! ## The result buffers -/

/-- The first call's result buffer after the call is the array its write-backs leave. -/
theorem V2_v47 (c : Dev nD) :
    (V2 m ρ c main_v47 : S100000x64.Idx → EReal) = ((dat0 (F := Ideal) (V1 m ρ) c).arrAt 3 cfg0.N : S100000x64.Idx → EReal) :=
  W2_arr m ρ c 3
/-- The second call's result buffer at the return is the array its write-backs leave. -/
theorem W4_v62 (c : Dev nD) :
    (W4 m ρ c (Proc.devRef .tc main_v62) : S100000x64.Idx → EReal) = ((dat1 (F := Ideal) (V3 m ρ) c).arrAt 3 cfg1.N : S100000x64.Idx → EReal) :=
  W4_arr m ρ c 3

end Cert.KernelIdeal.HostValue

end
-- ==== Proof.LinearBlock.lean ====
/-
  One block of a dense layer, entry by entry.

  The body of each of the two calls takes a block of 10000 rows of features, the 64 x 64 matrix and the bias row. It
  multiplies the block by the matrix into a zero accumulator (the casts to bf16 are the identity on extended reals, and
  so are the shape casts of a shape to itself), adds the bias row to every row of the product, and, in the first call
  only, takes the maximum with zero. So entry (p, q) of the result is
    first call:  max ((sum_k x[p, k] * w[k, q]) + b[0, q]) 0        second call:  (sum_k x[p, k] * w[k, q]) + b[0, q].
  The only work is the product: its contraction index has one axis of extent 64, so the sum over it is the sum over
  k : Fin 64, and the operands' indices at (p, q) and k are (p, k) and (k, q), axis by axis.
-/
import proofs.«159949_j16260746182861_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.LinearBlock

open Cert.KernelIdeal Cert.KernelIdeal.Gen
open Idealize.ShloMosaic Idealize.ShloMosaic.ValueIdx Idealize.SL.Sem
open scoped BigOperators

/-! ## The product's operand indices, axis by axis -/

/-- The left operand's row is the result's row. -/
theorem lhs_row (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- The left operand's column is the contraction index. -/
theorem lhs_col (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
/-- The right operand's row is the contraction index. -/
theorem rhs_row (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
/-- The right operand's column is the result's column. -/
theorem rhs_col (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-! ## The product into a zero accumulator -/

/-- Entry (p, q) of the block's product with the matrix: row p of the block against column q of the matrix. -/
theorem product_apply (x : FVec Ideal S10000x64 .bf16) (w : FVec Ideal S64x64 .bf16) (p : Fin 10000) (q : Fin 64) :
    matmul dot_S10000x64_S64x64_S10000x64_1_0_0_1_n_n none x w (constant (F := Ideal) S10000x64 .f32 0x00000000#32) (ix2 p q)
      = ∑ k : Fin 64, x (ix2 p k) * w (ix2 k q) := by
  simp only [matmul]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact lhs_row _ _
    | ⟨1, _⟩ => exact (lhs_col _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (rhs_row _ _).trans hk
    | ⟨1, _⟩ => exact rhs_col _ _)
  rw [el, er]

/-! ## The two bodies at an entry -/

/-- The first call's block at (p, q): the product's entry plus the bias, clipped below at zero. -/
theorem relu_block_apply (x0 : Vec Ideal S10000x64 .f32) (x1 : Vec Ideal S64x64 .f32) (x2 : Vec Ideal S1x64 .f32)
    (p : Fin 10000) (q : Fin 64) :
    k0_pay1 (F := Ideal) x0 x1 x2 (ix2 p q)
      = max ((∑ k : Fin 64, x0 (ix2 p k) * x1 (ix2 k q)) + x2 (ix2 (0 : Fin 1) q)) 0 := by
  unfold k0_pay1
  rw [maximumf_apply, addf_apply, broadcast_apply, product_apply, shapeCast_self, shapeCast_self,
    broadcastTo_1b_ab_apply]
  simp only [truncf_apply]
  exact congrArg (max _) Ideal.ofBits_zero_f32

/-- The second call's block at (p, q): the product's entry plus the bias. -/
theorem affine_block_apply (x0 : Vec Ideal S10000x64 .f32) (x1 : Vec Ideal S64x64 .f32) (x2 : Vec Ideal S1x64 .f32)
    (p : Fin 10000) (q : Fin 64) :
    k1_pay1 (F := Ideal) x0 x1 x2 (ix2 p q)
      = (∑ k : Fin 64, x0 (ix2 p k) * x1 (ix2 k q)) + x2 (ix2 (0 : Fin 1) q) := by
  unfold k1_pay1
  rw [addf_apply, product_apply, shapeCast_self, shapeCast_self, broadcastTo_1b_ab_apply]
  simp only [truncf_apply]

end Cert.KernelIdeal.LinearBlock

end
-- ==== Proof.LinearValue.lean ====
/-
  The two dense layers of the kernel, as arrays.

  Each pallas_call walks ten blocks of 10000 rows. At a block the body multiplies the block of aggregated features (cast to
  bf16, which is the identity on extended reals) by the 64 x 64 matrix into a zero accumulator, adds the bias row, and, in the
  first call only, takes the maximum with zero. Block t of the output holds rows 10000 t .. 10000 t + 9999, so the blocks cover
  the array and entry (r, q) of the result is
    first call:  max ((sum_k A[r, k] * W[k, q]) + b[0, q]) 0        second call:  (sum_k A[r, k] * W[k, q]) + b[0, q].
-/
import proofs.«159949_j16260746182861_1_alg».proof.Proof.Gen.KernelIdeal.Frame
import proofs.«159949_j16260746182861_1_alg».proof.Proof.LinearBlock
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.LinearValue

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

-- the TensorCore's buffer contents when a region is entered
variable (V : (c : Dev nD) → (b : Ref sig .tc) → Buf (Elt Ideal) ((c : Thread nD τ).loc b))

/-- The arrays of the two calls as the regions find them, and the arrays their write-backs leave, at their literal types. -/
abbrev a0 (c : Dev nD) : FVec Ideal S100000x64 .f32 := V c main_v45
abbrev w0 (c : Dev nD) : FVec Ideal S64x64 .f32 := V c main_arg2
abbrev b0 (c : Dev nD) : FVec Ideal S1x64 .f32 := V c main_v46
abbrev o0 (c : Dev nD) : FVec Ideal S100000x64 .f32 := (dat0 (F := Ideal) V c).arrAt 3 cfg0.N
abbrev a1 (c : Dev nD) : FVec Ideal S100000x64 .f32 := V c main_v60
abbrev w1 (c : Dev nD) : FVec Ideal S64x64 .f32 := V c main_arg4
abbrev b1 (c : Dev nD) : FVec Ideal S1x64 .f32 := V c main_v61
abbrev o1 (c : Dev nD) : FVec Ideal S100000x64 .f32 := (dat1 (F := Ideal) V c).arrAt 3 cfg1.N

/-! ## What the two calls share -/

/-- The staging buffers are loaded and stored whole: the offsets of those accesses are zero on both axes. -/
theorem zero_offsets : (![0, 0] : Fin 2 → Nat) = fun _ => 0 := funext fun a => by fin_cases a <;> rfl

/-- An array of a block's shape is known by its entries at literal coordinates. -/
theorem block_ext (X Y : Vec Ideal S10000x64 .f32) (h : ∀ (p : Fin 10000) (q : Fin 64), X (ix2 p q) = Y (ix2 p q)) : X = Y :=
  funext fun j => by rw [eq_ix2 j]; exact h _ _

/-! ## The first call -/

/-- The blocks the body finds at point t, at their literal types. -/
abbrev xblk0 (c : Dev nD) (t : Fin cfg0.N) : Vec Ideal S10000x64 .f32 := iblk0 (F := Ideal) V c 0 t
abbrev wblk0 (c : Dev nD) (t : Fin cfg0.N) : Vec Ideal S64x64 .f32 := iblk0 (F := Ideal) V c 1 t
abbrev bblk0 (c : Dev nD) (t : Fin cfg0.N) : Vec Ideal S1x64 .f32 := iblk0 (F := Ideal) V c 2 t

/-- Where the windows' blocks sit at point t: the features' and the result's at block row t, the matrix's and the bias
    row's at the origin (decided over the ten points). -/
theorem block_index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of the features' block at point t is row 10000 t + p of the array. -/
theorem xblk0_apply (c : Dev nD) (t : Fin cfg0.N) (p : Fin 10000) (k : Fin 64) (r : Fin 100000)
    (hr : r.val = t.val * 10000 + p.val) : xblk0 V c t (ix2 p k) = a0 V c (ix2 r k) := by
  obtain ⟨e0, e1, -⟩ := block_index0 t
  show V c main_v45 (((cfg0.win 0).blk t).view.emb (ix2 p k)) = V c main_v45 (ix2 r k)
  refine congrArg (V c main_v45) (funext fun a => Fin.ext ?_)
  match a with
  | ⟨0, _⟩ => show win0_0.index t (0 : Fin 2) * 10000 + 1 * p.val = r.val; omega
  | ⟨1, _⟩ => show win0_0.index t (1 : Fin 2) * 64 + 1 * k.val = k.val; omega

/-- The matrix's block is the whole matrix. -/
theorem wblk0_apply (c : Dev nD) (t : Fin cfg0.N) (k q : Fin 64) : wblk0 V c t (ix2 k q) = w0 V c (ix2 k q) := by
  obtain ⟨-, -, e2, e3, -⟩ := block_index0 t
  show V c main_arg2 (((cfg0.win 1).blk t).view.emb (ix2 k q)) = V c main_arg2 (ix2 k q)
  refine congrArg (V c main_arg2) (funext fun a => Fin.ext ?_)
  match a with
  | ⟨0, _⟩ => show win0_1.index t (0 : Fin 2) * 64 + 1 * k.val = k.val; omega
  | ⟨1, _⟩ => show win0_1.index t (1 : Fin 2) * 64 + 1 * q.val = q.val; omega

/-- The bias row's block is the whole row. -/
theorem bblk0_apply (c : Dev nD) (t : Fin cfg0.N) (q : Fin 64) : bblk0 V c t (ix2 (0 : Fin 1) q) = b0 V c (ix2 (0 : Fin 1) q) := by
  obtain ⟨-, -, -, -, e4, e5, -⟩ := block_index0 t
  show V c main_v46 (((cfg0.win 2).blk t).view.emb (ix2 (0 : Fin 1) q)) = V c main_v46 (ix2 (0 : Fin 1) q)
  refine congrArg (V c main_v46) (funext fun a => Fin.ext ?_)
  match a with
  | ⟨0, _⟩ => show win0_2.index t (0 : Fin 2) * 1 + 1 * 0 = 0; omega
  | ⟨1, _⟩ => show win0_2.index t (1 : Fin 2) * 64 + 1 * q.val = q.val; omega

/-- The first call's result at row r, column q: row r of the features against column q of the matrix, plus the bias,
    clipped below at zero. -/
def relu_lin (c : Dev nD) (r : Fin 100000) (q : Fin 64) : Ideal .f32 :=
  max ((∑ k : Fin 64, a0 V c (ix2 r k) * w0 V c (ix2 k q)) + b0 V c (ix2 (0 : Fin 1) q)) 0

/-- The same as an array. -/
abbrev reluArr (c : Dev nD) : FVec Ideal S100000x64 .f32 :=
  fun i => relu_lin V c ⟨(i 0).val, idx2_lt0 i⟩ ⟨(i 1).val, idx2_lt1 i⟩

/-- That array at an index whose coordinates are r and q. -/
theorem reluArr_apply (c : Dev nD) (i : S100000x64.Idx) (r : Fin 100000) (q : Fin 64)
    (h0 : (i 0).val = r.val) (h1 : (i 1).val = q.val) : reluArr V c i = relu_lin V c r q := by
  show relu_lin V c ⟨(i 0).val, idx2_lt0 i⟩ ⟨(i 1).val, idx2_lt1 i⟩ = _
  rw [show (⟨(i 0).val, idx2_lt0 i⟩ : Fin 100000) = r from Fin.ext h0, show (⟨(i 1).val, idx2_lt1 i⟩ : Fin 64) = q from Fin.ext h1]

/-- What point t writes back is block t of that array: rows 10000 t .. 10000 t + 9999. -/
theorem flushed0_eq (c : Dev nD) (t : Fin cfg0.N) :
    (dat0 (F := Ideal) V c).flushed 3 t = ((cfg0.win 3).blk t).view.read (Elt Ideal) (reluArr V c) := by
  show (cfg0.win 3).cut (grid0.coords t) ((dat0 (F := Ideal) V c).after 3 t) = _
  rw [after0_3]
  unfold out0_3
  rw [View.canon_unit_zero zero_offsets]
  simp only [View.ld_unit_zero (S := S10000x64) zero_offsets, View.ld_unit_zero (S := S64x64) zero_offsets,
    View.ld_unit_zero (S := S1x64) zero_offsets]
  refine block_ext _ _ fun p q => ?_
  have ht : t.val < 10 := t.isLt
  obtain ⟨-, -, -, -, -, -, e6, e7⟩ := block_index0 t
  obtain ⟨r, hr⟩ : ∃ r : Fin 100000, r.val = t.val * 10000 + p.val :=
    ⟨⟨t.val * 10000 + p.val, by have := p.isLt; omega⟩, rfl⟩
  show k0_pay1 (F := Ideal) (xblk0 V c t) (wblk0 V c t) (bblk0 V c t) (ix2 p q)
    = reluArr V c (((cfg0.win 3).blk t).view.emb (ix2 p q))
  refine (LinearBlock.relu_block_apply (xblk0 V c t) (wblk0 V c t) (bblk0 V c t) p q).trans ?_
  have h0 : ((((cfg0.win 3).blk t).view.emb (ix2 p q)) 0).val = r.val := by
    show win0_3.index t (0 : Fin 2) * 10000 + 1 * p.val = r.val; omega
  have h1 : ((((cfg0.win 3).blk t).view.emb (ix2 p q)) 1).val = q.val := by
    show win0_3.index t (1 : Fin 2) * 64 + 1 * q.val = q.val; omega
  rw [reluArr_apply V c (((cfg0.win 3).blk t).view.emb (ix2 p q)) r q h0 h1]
  unfold relu_lin
  simp only [xblk0_apply V c t p _ r hr, wblk0_apply V c t, bblk0_apply V c t]

/-- An index of the result array is in point t's block iff each coordinate is in the block's range on its axis. -/
theorem mem_blk0 (t : Fin cfg0.N) (i : S100000x64.Idx) :
    i ∈ ((cfg0.win 3).blk t).view.set ↔ ∀ a : Fin 2, win0_3.index t a * S10000x64.size a ≤ (i a).val
      ∧ (i a).val < win0_3.index t a * S10000x64.size a + S10000x64.size a := by
  show i ∈ ((View.whole main_v47).slice (win0_3.rect t)).set ↔ _
  rw [View.set_slice_whole, Rect.mem_set_unit]
  exact Iff.rfl

/-- The ten blocks cover the array: row r lies in the block of point r / 10000, and every point writes back. -/
theorem cover0 (i : S100000x64.Idx) :
    ∃ t : Fin cfg0.N, (cfg0.win 3).flush t = true ∧ i ∈ ((cfg0.win 3).blk t).view.set := by
  have hi0 : (i 0).val < 100000 := idx2_lt0 i
  have hi1 : (i 1).val < 64 := idx2_lt1 i
  obtain ⟨t, ht⟩ : ∃ t : Fin cfg0.N, t.val = (i 0).val / 10000 :=
    ⟨⟨(i 0).val / 10000, by show (i 0).val / 10000 < 10; omega⟩, rfl⟩
  obtain ⟨-, -, -, -, -, -, e6, e7⟩ := block_index0 t
  refine ⟨t, flush0_3 t, ?_⟩
  rw [mem_blk0]
  intro a
  match a with
  | ⟨0, _⟩ =>
    show win0_3.index t (0 : Fin 2) * 10000 ≤ (i 0).val ∧ (i 0).val < win0_3.index t (0 : Fin 2) * 10000 + 10000
    omega
  | ⟨1, _⟩ =>
    show win0_3.index t (1 : Fin 2) * 64 ≤ (i 1).val ∧ (i 1).val < win0_3.index t (1 : Fin 2) * 64 + 64
    omega

/-- So the write-backs leave that array. -/
theorem final0 (c : Dev nD) : o0 V c = reluArr V c :=
  (dat0 (F := Ideal) V c).arrAt_eq_of_cover 3 (reluArr V c) (fun t _ => flushed0_eq V c t) cover0

/-- The first call's result array at (r, q): the aggregated features' row r against the matrix's column q, plus the bias,
    clipped below at zero. -/
theorem arr0 (c : Dev nD) (r : Fin 100000) (q : Fin 64) :
    o0 V c (ix2 r q) = max ((∑ k : Fin 64, a0 V c (ix2 r k) * w0 V c (ix2 k q)) + b0 V c (ix2 (0 : Fin 1) q)) 0 := by
  have h := congrFun (final0 V c) (ix2 r q)
  rw [reluArr_apply V c (ix2 r q) r q rfl rfl] at h
  exact h

/-! ## The second call -/

/-- The blocks the body finds at point t, at their literal types. -/
abbrev xblk1 (c : Dev nD) (t : Fin cfg1.N) : Vec Ideal S10000x64 .f32 := iblk1 (F := Ideal) V c 0 t
abbrev wblk1 (c : Dev nD) (t : Fin cfg1.N) : Vec Ideal S64x64 .f32 := iblk1 (F := Ideal) V c 1 t
abbrev bblk1 (c : Dev nD) (t : Fin cfg1.N) : Vec Ideal S1x64 .f32 := iblk1 (F := Ideal) V c 2 t

/-- Where the windows' blocks sit at point t: the features' and the result's at block row t, the matrix's and the bias
    row's at the origin (decided over the ten points). -/
theorem block_index1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row p of the features' block at point t is row 10000 t + p of the array. -/
theorem xblk1_apply (c : Dev nD) (t : Fin cfg1.N) (p : Fin 10000) (k : Fin 64) (r : Fin 100000)
    (hr : r.val = t.val * 10000 + p.val) : xblk1 V c t (ix2 p k) = a1 V c (ix2 r k) := by
  obtain ⟨e0, e1, -⟩ := block_index1 t
  show V c main_v60 (((cfg1.win 0).blk t).view.emb (ix2 p k)) = V c main_v60 (ix2 r k)
  refine congrArg (V c main_v60) (funext fun a => Fin.ext ?_)
  match a with
  | ⟨0, _⟩ => show win1_0.index t (0 : Fin 2) * 10000 + 1 * p.val = r.val; omega
  | ⟨1, _⟩ => show win1_0.index t (1 : Fin 2) * 64 + 1 * k.val = k.val; omega

/-- The matrix's block is the whole matrix. -/
theorem wblk1_apply (c : Dev nD) (t : Fin cfg1.N) (k q : Fin 64) : wblk1 V c t (ix2 k q) = w1 V c (ix2 k q) := by
  obtain ⟨-, -, e2, e3, -⟩ := block_index1 t
  show V c main_arg4 (((cfg1.win 1).blk t).view.emb (ix2 k q)) = V c main_arg4 (ix2 k q)
  refine congrArg (V c main_arg4) (funext fun a => Fin.ext ?_)
  match a with
  | ⟨0, _⟩ => show win1_1.index t (0 : Fin 2) * 64 + 1 * k.val = k.val; omega
  | ⟨1, _⟩ => show win1_1.index t (1 : Fin 2) * 64 + 1 * q.val = q.val; omega

/-- The bias row's block is the whole row. -/
theorem bblk1_apply (c : Dev nD) (t : Fin cfg1.N) (q : Fin 64) : bblk1 V c t (ix2 (0 : Fin 1) q) = b1 V c (ix2 (0 : Fin 1) q) := by
  obtain ⟨-, -, -, -, e4, e5, -⟩ := block_index1 t
  show V c main_v61 (((cfg1.win 2).blk t).view.emb (ix2 (0 : Fin 1) q)) = V c main_v61 (ix2 (0 : Fin 1) q)
  refine congrArg (V c main_v61) (funext fun a => Fin.ext ?_)
  match a with
  | ⟨0, _⟩ => show win1_2.index t (0 : Fin 2) * 1 + 1 * 0 = 0; omega
  | ⟨1, _⟩ => show win1_2.index t (1 : Fin 2) * 64 + 1 * q.val = q.val; omega

/-- The second call's result at row r, column q: row r of the features against column q of the matrix, plus the bias. -/
def affine_lin (c : Dev nD) (r : Fin 100000) (q : Fin 64) : Ideal .f32 :=
  (∑ k : Fin 64, a1 V c (ix2 r k) * w1 V c (ix2 k q)) + b1 V c (ix2 (0 : Fin 1) q)

/-- The same as an array. -/
abbrev affineArr (c : Dev nD) : FVec Ideal S100000x64 .f32 :=
  fun i => affine_lin V c ⟨(i 0).val, idx2_lt0 i⟩ ⟨(i 1).val, idx2_lt1 i⟩

/-- That array at an index whose coordinates are r and q. -/
theorem affineArr_apply (c : Dev nD) (i : S100000x64.Idx) (r : Fin 100000) (q : Fin 64)
    (h0 : (i 0).val = r.val) (h1 : (i 1).val = q.val) : affineArr V c i = affine_lin V c r q := by
  show affine_lin V c ⟨(i 0).val, idx2_lt0 i⟩ ⟨(i 1).val, idx2_lt1 i⟩ = _
  rw [show (⟨(i 0).val, idx2_lt0 i⟩ : Fin 100000) = r from Fin.ext h0, show (⟨(i 1).val, idx2_lt1 i⟩ : Fin 64) = q from Fin.ext h1]

/-- What point t writes back is block t of that array: rows 10000 t .. 10000 t + 9999. -/
theorem flushed1_eq (c : Dev nD) (t : Fin cfg1.N) :
    (dat1 (F := Ideal) V c).flushed 3 t = ((cfg1.win 3).blk t).view.read (Elt Ideal) (affineArr V c) := by
  show (cfg1.win 3).cut (grid1.coords t) ((dat1 (F := Ideal) V c).after 3 t) = _
  rw [after1_3]
  unfold out1_3
  rw [View.canon_unit_zero zero_offsets]
  simp only [View.ld_unit_zero (S := S10000x64) zero_offsets, View.ld_unit_zero (S := S64x64) zero_offsets,
    View.ld_unit_zero (S := S1x64) zero_offsets]
  refine block_ext _ _ fun p q => ?_
  have ht : t.val < 10 := t.isLt
  obtain ⟨-, -, -, -, -, -, e6, e7⟩ := block_index1 t
  obtain ⟨r, hr⟩ : ∃ r : Fin 100000, r.val = t.val * 10000 + p.val :=
    ⟨⟨t.val * 10000 + p.val, by have := p.isLt; omega⟩, rfl⟩
  show k1_pay1 (F := Ideal) (xblk1 V c t) (wblk1 V c t) (bblk1 V c t) (ix2 p q)
    = affineArr V c (((cfg1.win 3).blk t).view.emb (ix2 p q))
  refine (LinearBlock.affine_block_apply (xblk1 V c t) (wblk1 V c t) (bblk1 V c t) p q).trans ?_
  have h0 : ((((cfg1.win 3).blk t).view.emb (ix2 p q)) 0).val = r.val := by
    show win1_3.index t (0 : Fin 2) * 10000 + 1 * p.val = r.val; omega
  have h1 : ((((cfg1.win 3).blk t).view.emb (ix2 p q)) 1).val = q.val := by
    show win1_3.index t (1 : Fin 2) * 64 + 1 * q.val = q.val; omega
  rw [affineArr_apply V c (((cfg1.win 3).blk t).view.emb (ix2 p q)) r q h0 h1]
  unfold affine_lin
  simp only [xblk1_apply V c t p _ r hr, wblk1_apply V c t, bblk1_apply V c t]

/-- An index of the result array is in point t's block iff each coordinate is in the block's range on its axis. -/
theorem mem_blk1 (t : Fin cfg1.N) (i : S100000x64.Idx) :
    i ∈ ((cfg1.win 3).blk t).view.set ↔ ∀ a : Fin 2, win1_3.index t a * S10000x64.size a ≤ (i a).val
      ∧ (i a).val < win1_3.index t a * S10000x64.size a + S10000x64.size a := by
  show i ∈ ((View.whole main_v62).slice (win1_3.rect t)).set ↔ _
  rw [View.set_slice_whole, Rect.mem_set_unit]
  exact Iff.rfl

/-- The ten blocks cover the array: row r lies in the block of point r / 10000, and every point writes back. -/
theorem cover1 (i : S100000x64.Idx) :
    ∃ t : Fin cfg1.N, (cfg1.win 3).flush t = true ∧ i ∈ ((cfg1.win 3).blk t).view.set := by
  have hi0 : (i 0).val < 100000 := idx2_lt0 i
  have hi1 : (i 1).val < 64 := idx2_lt1 i
  obtain ⟨t, ht⟩ : ∃ t : Fin cfg1.N, t.val = (i 0).val / 10000 :=
    ⟨⟨(i 0).val / 10000, by show (i 0).val / 10000 < 10; omega⟩, rfl⟩
  obtain ⟨-, -, -, -, -, -, e6, e7⟩ := block_index1 t
  refine ⟨t, flush1_3 t, ?_⟩
  rw [mem_blk1]
  intro a
  match a with
  | ⟨0, _⟩ =>
    show win1_3.index t (0 : Fin 2) * 10000 ≤ (i 0).val ∧ (i 0).val < win1_3.index t (0 : Fin 2) * 10000 + 10000
    omega
  | ⟨1, _⟩ =>
    show win1_3.index t (1 : Fin 2) * 64 ≤ (i 1).val ∧ (i 1).val < win1_3.index t (1 : Fin 2) * 64 + 64
    omega

/-- So the write-backs leave that array. -/
theorem final1 (c : Dev nD) : o1 V c = affineArr V c :=
  (dat1 (F := Ideal) V c).arrAt_eq_of_cover 3 (affineArr V c) (fun t _ => flushed1_eq V c t) cover1

/-- The second call's result array at (r, q): the aggregated features' row r against the matrix's column q, plus the bias. -/
theorem arr1 (c : Dev nD) (r : Fin 100000) (q : Fin 64) :
    o1 V c (ix2 r q) = (∑ k : Fin 64, a1 V c (ix2 r k) * w1 V c (ix2 k q)) + b1 V c (ix2 (0 : Fin 1) q) := by
  have h := congrFun (final1 V c) (ix2 r q)
  rw [affineArr_apply V c (ix2 r q) r q rfl rfl] at h
  exact h

end Cert.KernelIdeal.LinearValue

end
-- ==== Proof.RefValue.lean ====
/-
  The reference's stages read at an element.

  The reference multiplies by the dense matrix first and aggregates afterwards: each layer is the accumulating row scatter,
  into zeros at the edges' targets, of the gathered rows of (features x matrix) times the edge weights, plus the bias. The
  second layer's index and weight stages are the first layer's recomputed, so they are the same arrays; every edge weight
  is a real number (a product of two real powers of a finite count) and does not depend on the column.
-/
import proofs.«159949_j16260746182861_1_alg».proof.Proof.Gen.ReferenceIdeal.Read
import proofs.«159949_j16260746182861_1_alg».proof.Proof.GcnLaw

set_option maxRecDepth 16384

noncomputable section

namespace Cert.ReferenceIdeal.RefValue

open Cert.ReferenceIdeal Cert.ReferenceIdeal.Gen Cert.ReferenceIdeal.Read Cert.GcnLaw
open Idealize.ShloMosaic Idealize.ShloMosaic.TcCoe Idealize.ShloMosaic.ValueIdx Idealize.SL.Sem
open scoped BigOperators

variable (x0 : FVec Ideal S100000x64 .f32) (x1 : IVec S2x1600000 32) (x2 : FVec Ideal S64x64 .f32) (x3 : FVec Ideal S64 .f32)
  (x4 : FVec Ideal S64x64 .f32) (x5 : FVec Ideal S64 .f32)

/-! ## The zero array, the indices and the weights -/

/-- The array both scatters accumulate into is zero. -/
theorem zero_apply (i : S100000x64.Idx) : val_main_v44 (F := Ideal) i = 0 := by
  rw [val_main_v44_apply, val_main_cst_9_apply]
  exact Ideal.ofBits_zero_f32
/-- The second layer's zero array, scatter indices, gather indices and weights are the first layer's. -/
theorem zero2_eq : val_main_v77 (F := Ideal) = val_main_v44 (F := Ideal) := by
  unfold val_main_v77 val_main_v44 val_main_cst_16 val_main_cst_9
  rfl
theorem dst2_eq : val_main_v78 (F := Ideal) x1 = val_main_v45 (F := Ideal) x1 := by
  unfold val_main_v78 val_main_v45
  rfl
theorem src2_eq : val_main_v72 (F := Ideal) x1 = val_main_v39 (F := Ideal) x1 := by
  unfold val_main_v72 val_main_v71 val_main_v70 val_main_v69 val_main_c_15 val_main_v68 val_main_v67 val_main_c_14
  unfold val_main_v39 val_main_v38 val_main_v37 val_main_v36 val_main_c_8 val_main_v35 val_main_v34 val_main_c_7
  rfl
theorem weight2_eq : val_main_v75 (F := Ideal) x1 = val_main_v42 (F := Ideal) x1 := by
  unfold val_main_v75 val_main_v74 val_main_v66
  unfold val_main_v58 val_main_v57 val_main_v56 val_main_v55 val_main_v54 val_main_c_11 val_main_v53 val_main_v52 val_main_c_10
  unfold val_main_v65 val_main_v64 val_main_v63 val_main_v62 val_main_v61 val_main_c_13 val_main_v60 val_main_v59 val_main_c_12
  unfold val_main_v42 val_main_v41 val_main_v33
  unfold val_main_v25 val_main_v24 val_main_v23 val_main_v22 val_main_v21 val_main_c_4 val_main_v20 val_main_v19 val_main_c_3
  unfold val_main_v32 val_main_v31 val_main_v30 val_main_v29 val_main_v28 val_main_c_6 val_main_v27 val_main_v26 val_main_c_5
  rfl
/-- Every edge weight is a real number. -/
theorem weight_real (i : S1700000x64.Idx) : IsReal (val_main_v42 (F := Ideal) x1 i) := by
  -- the counts: ones accumulated into zeros
  have h15 : ∀ k, IsReal (val_main_v15 (F := Ideal) x1 k) := fun k => by
    unfold val_main_v15
    refine isReal_scatterAdd _ _ _ _ (fun a => ?_) (fun b => ?_) k
    · rw [val_main_v7_apply, val_main_cst_apply]; exact isReal_zero_f32
    · rw [val_main_v14_apply, val_main_cst_1_apply]; exact isReal_one_f32
  -- the exponent -1/2
  have h16 : ∀ k, IsReal (val_main_v16 (F := Ideal) k) := fun k => by
    rw [val_main_v16_apply, val_main_cst_2_apply]; exact isReal_neg_half_f32
  -- the powers
  have h17 : ∀ k, IsReal (val_main_v17 (F := Ideal) x1 k) := fun k => by
    rw [val_main_v17_apply]
    exact IsReal.pow (h15 k) (h16 k)
  -- the weight of an edge: the product of two gathered powers
  rw [val_main_v42_apply, val_main_v41_apply, val_main_v33_apply]
  unfold val_main_v25 val_main_v32
  exact IsReal.mul (isReal_gather (φ := .f32) _ _ _ h17 _) (isReal_gather (φ := .f32) _ _ _ h17 _)
/-- An edge's weight is the same in every column. -/
theorem weight_col (e : Fin 1700000) (q q' : Fin 64) :
    val_main_v42 (F := Ideal) x1 (ix2 e q) = val_main_v42 (F := Ideal) x1 (ix2 e q') := by
  -- the weight's source index forgets the column
  have h : idx_main_v42 (ix2 e q) = idx_main_v42 (ix2 e q') :=
    funext fun a => by match a with | ⟨0, _⟩ => rfl | ⟨1, _⟩ => rfl
  rw [val_main_v42_apply, val_main_v42_apply, h]

/-! ## The layers -/

/-- Features times the first matrix, at (r, q). -/
theorem dense1_apply (r : Fin 100000) (q : Fin 64) :
    val_main_v18 (F := Ideal) x0 x2 (ix2 r q) = ∑ k : Fin 64, x0 (ix2 r k) * x2 (ix2 k q) := by
  rw [val_main_v18_apply]
  refine Finset.sum_congr rfl fun k _ => ?_
  have hl : lidx_main_v18 (ix2 r q) k = ix2 r k :=
    funext fun a => by match a with | ⟨0, _⟩ => rfl | ⟨1, _⟩ => rfl
  have hr : ridx_main_v18 (ix2 r q) k = ix2 k q :=
    funext fun a => by match a with | ⟨0, _⟩ => rfl | ⟨1, _⟩ => rfl
  rw [hl, hr]
/-- The first layer's aggregate is the row scatter of the gathered rows of (features x matrix) times the weights. -/
theorem agg1_eq :
    val_main_v46 (F := Ideal) x0 x1 x2 = Host.scatterAdd (F := Ideal) (φ := .f32) scatter_S100000x64_S1700000x1_S1700000x64_1_0_0_1 (val_main_v44 (F := Ideal))
      (val_main_v45 (F := Ideal) x1)
      (mulf (Host.gather gather_S100000x64_S1700000x1_S1700000x64_1_0_n_n_0_1_164 (val_main_v18 (F := Ideal) x0 x2) (val_main_v39 (F := Ideal) x1))
        (val_main_v42 (F := Ideal) x1)) := by
  unfold val_main_v46 val_main_v43 val_main_v40
  rfl
/-- The hidden layer at (r, q): the first aggregate plus the bias, clipped below at zero. -/
theorem hidden_apply (r : Fin 100000) (q : Fin 64) :
    val_main_v50 (F := Ideal) x0 x1 x2 x3 (ix2 r q) = max (val_main_v46 (F := Ideal) x0 x1 x2 (ix2 r q) + x3 (ix1 q)) 0 := by
  have hb : idx_main_v47 (idx_main_v48 (ix2 r q)) = ix1 q :=
    funext fun a => by match a with | ⟨0, _⟩ => rfl
  rw [val_main_v50_apply, val_main_v49_apply, val_main_v48_apply, val_main_v47_apply, hb, val_main_call0_v0_apply,
    val_main_call0_cst_apply, Ideal.maximumf_def, Ideal.addf_def]
  congr 1
  exact Ideal.ofBits_zero_f32
/-- The hidden layer times the second matrix, at (r, q). -/
theorem dense2_apply (r : Fin 100000) (q : Fin 64) :
    val_main_v51 (F := Ideal) x0 x1 x2 x3 x4 (ix2 r q) = ∑ k : Fin 64, val_main_v50 (F := Ideal) x0 x1 x2 x3 (ix2 r k) * x4 (ix2 k q) := by
  rw [val_main_v51_apply]
  refine Finset.sum_congr rfl fun k _ => ?_
  have hl : lidx_main_v51 (ix2 r q) k = ix2 r k :=
    funext fun a => by match a with | ⟨0, _⟩ => rfl | ⟨1, _⟩ => rfl
  have hr : ridx_main_v51 (ix2 r q) k = ix2 k q :=
    funext fun a => by match a with | ⟨0, _⟩ => rfl | ⟨1, _⟩ => rfl
  rw [hl, hr]
/-- The second layer's aggregate, over the first layer's indices and weights. -/
theorem agg2_eq :
    val_main_v79 (F := Ideal) x0 x1 x2 x3 x4 = Host.scatterAdd (F := Ideal) (φ := .f32) scatter_S100000x64_S1700000x1_S1700000x64_1_0_0_1 (val_main_v44 (F := Ideal))
      (val_main_v45 (F := Ideal) x1)
      (mulf (Host.gather gather_S100000x64_S1700000x1_S1700000x64_1_0_n_n_0_1_164 (val_main_v51 (F := Ideal) x0 x1 x2 x3 x4) (val_main_v39 (F := Ideal) x1))
        (val_main_v42 (F := Ideal) x1)) := by
  rw [← zero2_eq, ← dst2_eq x1, ← src2_eq x1, ← weight2_eq x1]
  unfold val_main_v79 val_main_v76 val_main_v73
  rfl
/-- The result at (r, q): the second aggregate plus the bias. -/
theorem out_apply (r : Fin 100000) (q : Fin 64) :
    val_main_v82 (F := Ideal) x0 x1 x2 x3 x4 x5 (ix2 r q) = val_main_v79 (F := Ideal) x0 x1 x2 x3 x4 (ix2 r q) + x5 (ix1 q) := by
  have hb : idx_main_v80 (idx_main_v81 (ix2 r q)) = ix1 q :=
    funext fun a => by match a with | ⟨0, _⟩ => rfl
  rw [val_main_v82_apply, val_main_v81_apply, val_main_v80_apply, hb, Ideal.addf_def]

end Cert.ReferenceIdeal.RefValue

end
-- ==== Proof.Bridge.lean ====
/-
  The kernel program's result is the reference's.

  Kernel: each layer aggregates first (for every node, the sum over the edges landing on it of the source row times the edge
  weight) and multiplies by the dense matrix afterwards, inside the pallas_call, which also adds the bias and, in the first
  layer, clips at zero. Reference: each layer multiplies first and aggregates afterwards. The index arrays and the edge
  weights are the same operations of the edge list on both sides, and every number in sight is real (the inputs by the
  precondition, the edge weights as products of real powers of finite counts), so the two orders agree layer by layer:
  first the hidden arrays are equal, then the results.
-/
import proofs.«159949_j16260746182861_1_alg».proof.Proof.KernelHost
import proofs.«159949_j16260746182861_1_alg».proof.Proof.LinearValue
import proofs.«159949_j16260746182861_1_alg».proof.Proof.RefValue
import proofs.«159949_j16260746182861_1_alg».proof.Proof.GcnLaw

set_option maxRecDepth 16384

noncomputable section

namespace Cert.Proof.Bridge

open Cert.KernelIdeal Cert.KernelIdeal.Gen Cert.KernelIdeal.HostValue Cert.KernelIdeal.LinearValue
open Cert.ReferenceIdeal.Read Cert.ReferenceIdeal.RefValue Cert.GcnLaw
open Idealize.ShloMosaic Idealize.ShloMosaic.TcCoe Idealize.ShloMosaic.ValueIdx Idealize.SL.Sem
open scoped BigOperators

variable (m : (ℓ : Loc nD τ sig) → Buf (Elt Ideal) ℓ) (ρ : Dev nD → PrngReg) (c : Dev nD)

/-- The six arguments as launched, at their literal types. -/
abbrev X0 : FVec Ideal S100000x64 .f32 := m ((c.tc : Thread nD τ).loc main_arg0)
abbrev X1 : IVec S2x1600000 32 := m ((c.tc : Thread nD τ).loc main_arg1)
abbrev X2 : FVec Ideal S64x64 .f32 := m ((c.tc : Thread nD τ).loc main_arg2)
abbrev X3 : FVec Ideal S64 .f32 := m ((c.tc : Thread nD τ).loc main_arg3)
abbrev X4 : FVec Ideal S64x64 .f32 := m ((c.tc : Thread nD τ).loc main_arg4)
abbrev X5 : FVec Ideal S64 .f32 := m ((c.tc : Thread nD τ).loc main_arg5)

/-- One layer, in the kernel's spelling: the aggregate of real features, times a real matrix, is the aggregate of the
    product. -/
theorem layer (feat fw : FVec Ideal S100000x64 .f32) (wm : FVec Ideal S64x64 .f32) (x1 : IVec S2x1600000 32)
    (hfeat : ∀ i, IsReal (feat i)) (hw : ∀ i, IsReal (wm i))
    (hfw : ∀ (r : Fin 100000) (q : Fin 64), fw (ix2 r q) = ∑ k : Fin 64, feat (ix2 r k) * wm (ix2 k q))
    (r : Fin 100000) (q : Fin 64) :
    ∑ k : Fin 64, agg feat x1 (ix2 r k) * wm (ix2 k q) = agg fw x1 (ix2 r q) := by
  unfold agg
  exact agg_then_dense scatter_S100000x64_S1700000x1_S1700000x64_1_0_0_1 rfl rfl rfl rfl
    gather_S100000x64_S1700000x1_S1700000x64_1_0_n_n_0_1_164 rfl rfl rfl rfl rfl (by decide)
    (val_main_v44 (F := Ideal)) zero_apply feat fw wm (val_main_v45 (F := Ideal) x1) (val_main_v39 (F := Ideal) x1)
    (val_main_v42 (F := Ideal) x1) hfeat hw (weight_real x1) (weight_col x1) hfw r q

/-- The reference's two aggregates are the kernel-side aggregate of the dense products. -/
theorem ref_agg1 (x0 : FVec Ideal S100000x64 .f32) (x1 : IVec S2x1600000 32) (x2 : FVec Ideal S64x64 .f32) :
    val_main_v46 (F := Ideal) x0 x1 x2 = agg (val_main_v18 (F := Ideal) x0 x2) x1 := by
  rw [agg1_eq]; rfl
theorem ref_agg2 (x0 : FVec Ideal S100000x64 .f32) (x1 : IVec S2x1600000 32) (x2 : FVec Ideal S64x64 .f32) (x3 : FVec Ideal S64 .f32)
    (x4 : FVec Ideal S64x64 .f32) :
    val_main_v79 (F := Ideal) x0 x1 x2 x3 x4 = agg (val_main_v51 (F := Ideal) x0 x1 x2 x3 x4) x1 := by
  rw [agg2_eq]; rfl

/-- An aggregate of a real array is real. -/
theorem agg_real (feat : FVec Ideal S100000x64 .f32) (x1 : IVec S2x1600000 32) (hfeat : ∀ i, IsReal (feat i)) (i : S100000x64.Idx) :
    IsReal (agg feat x1 i) := by
  unfold agg
  refine isReal_scatterAdd _ _ _ _ (fun j => ?_) (fun j => ?_) i
  · rw [zero_apply]; exact isReal_zero
  · exact (isReal_gather _ _ _ hfeat j).mul (weight_real x1 j)

/-- The hidden layer is real when the inputs are. -/
theorem hidden_real (x0 : FVec Ideal S100000x64 .f32) (x1 : IVec S2x1600000 32) (x2 : FVec Ideal S64x64 .f32) (x3 : FVec Ideal S64 .f32)
    (h0 : ∀ i, IsReal (x0 i)) (h2 : ∀ i, IsReal (x2 i)) (h3 : ∀ i, IsReal (x3 i)) (i : S100000x64.Idx) :
    IsReal (val_main_v50 (F := Ideal) x0 x1 x2 x3 i) := by
  obtain ⟨r, q, rfl⟩ : ∃ (r : Fin 100000) (q : Fin 64), i = ix2 r q := ⟨i 0, i 1, eq_ix2 i⟩
  rw [hidden_apply, ref_agg1]
  refine ((agg_real _ x1 (fun j => ?_) _).add (h3 _)).max isReal_zero
  obtain ⟨r', q', rfl⟩ : ∃ (r' : Fin 100000) (q' : Fin 64), j = ix2 r' q' := ⟨j 0, j 1, eq_ix2 j⟩
  rw [dense1_apply]
  exact isReal_sum _ _ fun k _ => (h0 _).mul (h2 _)

/-- After the first call its result buffer holds the reference's hidden layer. -/
theorem hidden_eq (h0 : ∀ i, IsReal (X0 m c i)) (h2 : ∀ i, IsReal (X2 m c i)) :
    (V2 m ρ c main_v47 : S100000x64.Idx → EReal) = val_main_v50 (F := Ideal) (X0 m c) (X1 m c) (X2 m c) (X3 m c) := by
  funext i
  obtain ⟨r, q, rfl⟩ : ∃ (r : Fin 100000) (q : Fin 64), i = ix2 r q := ⟨i 0, i 1, eq_ix2 i⟩
  rw [V2_v47]
  show o0 (V1 m ρ) c (ix2 r q) = _
  rw [arr0]
  dsimp only [a0, w0, b0]
  rw [V1_v45, V1_arg2, V1_v46, hidden_apply, ref_agg1]
  rw [layer (X0 m c) (val_main_v18 (F := Ideal) (X0 m c) (X2 m c)) (X2 m c) (X1 m c) h0 h2 (dense1_apply (X0 m c) (X2 m c)) r q]

/-- At the return the result buffer holds the reference's result. -/
theorem out_eq (h0 : ∀ i, IsReal (X0 m c i)) (h2 : ∀ i, IsReal (X2 m c i)) (h3 : ∀ i, IsReal (X3 m c i))
    (h4 : ∀ i, IsReal (X4 m c i)) :
    (W4 m ρ c (Proc.devRef .tc main_v62) : S100000x64.Idx → EReal)
      = val_main_v82 (F := Ideal) (X0 m c) (X1 m c) (X2 m c) (X3 m c) (X4 m c) (X5 m c) := by
  funext i
  obtain ⟨r, q, rfl⟩ : ∃ (r : Fin 100000) (q : Fin 64), i = ix2 r q := ⟨i 0, i 1, eq_ix2 i⟩
  rw [W4_v62]
  show o1 (V3 m ρ) c (ix2 r q) = _
  rw [arr1]
  dsimp only [a1, w1, b1]
  rw [V3_v60, V3_arg4, V3_v61, out_apply, ref_agg2, hidden_eq m ρ c h0 h2]
  rw [layer (val_main_v50 (F := Ideal) (X0 m c) (X1 m c) (X2 m c) (X3 m c)) (val_main_v51 (F := Ideal) (X0 m c) (X1 m c) (X2 m c) (X3 m c) (X4 m c))
    (X4 m c) (X1 m c) (hidden_real _ _ _ _ h0 h2 h3) h4 (dense2_apply (X0 m c) (X1 m c) (X2 m c) (X3 m c) (X4 m c)) r q]

end Cert.Proof.Bridge

end
-- ==== Proof.lean ====
/-
  The certificate of a two-layer graph convolution: the kernel program aggregates each layer's features over the edges
  (a gather, a scaling by the symmetric normalisation, an accumulating scatter) on the host and applies the dense layer
  (matrix, bias, and a clip at zero after the first) in a pallas_call over ten row blocks; the reference applies the dense
  matrix first and aggregates afterwards. Over real numbers aggregation commutes with the right multiplication by a matrix,
  and under the precondition every number involved is real, so the two programs end with the same array.

  The three frames: the two kernel programs' are the generated frame certificates; the reference's is its generated run
  with the result dropped. The idealization rewrote nothing, so its preservation claim is trivial. The value claim: the
  kernel program's run with its result buffer named (the generated frame's launch, keeping the result), the result buffer
  read back through the two calls and the host operations, and the layer-by-layer bridge to the reference's run.
-/
import proofs.«159949_j16260746182861_1_alg».proof.Defs
import proofs.«159949_j16260746182861_1_alg».proof.Proof.Gen.Kernel
import proofs.«159949_j16260746182861_1_alg».proof.Proof.Gen.Kernel.Skeleton
import proofs.«159949_j16260746182861_1_alg».proof.Proof.Gen.Kernel.Launch
import proofs.«159949_j16260746182861_1_alg».proof.Proof.Gen.Kernel.Points
import proofs.«159949_j16260746182861_1_alg».proof.Proof.Gen.Kernel.Frame
import proofs.«159949_j16260746182861_1_alg».proof.Proof.Gen.KernelIdeal
import proofs.«159949_j16260746182861_1_alg».proof.Proof.Gen.KernelIdeal.Skeleton
import proofs.«159949_j16260746182861_1_alg».proof.Proof.Gen.KernelIdeal.Launch
import proofs.«159949_j16260746182861_1_alg».proof.Proof.Gen.KernelIdeal.Points
import proofs.«159949_j16260746182861_1_alg».proof.Proof.Gen.KernelIdeal.Frame
import proofs.«159949_j16260746182861_1_alg».proof.Proof.Gen.ReferenceIdeal
import proofs.«159949_j16260746182861_1_alg».proof.Proof.Gen.Pre_finite_inputs
import proofs.«159949_j16260746182861_1_alg».proof.Proof.Gen.ReferenceIdeal.Run
import proofs.«159949_j16260746182861_1_alg».proof.Proof.Gen.ReferenceIdeal.Read
import proofs.«159949_j16260746182861_1_alg».proof.Proof.KernelRun
import proofs.«159949_j16260746182861_1_alg».proof.Proof.FiniteInputs
import proofs.«159949_j16260746182861_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs, from memories agreeing on the arguments, end with the same result array: the kernel program's
    result buffer at the return is the reference's last stage of the same arguments, which are real by the precondition. -/
theorem algebraic : Cert.algebraic_KernelIdeal_ReferenceIdeal := by
  intro m ρ m' ρ' hpre hagree
  refine ⟨fun c => Cert.KernelIdeal.Gen.W4 m ρ c (Proc.devRef .tc Cert.KernelIdeal.main_v62), Cert.KernelIdeal.Gen.run_out m ρ, ?_⟩
  refine (θ_run Cert.ReferenceIdeal.defs _ _).mono (fun _ h c => ⟨(h c).1.trans ?_, (h c).2⟩)
    (Cert.ReferenceIdeal.Value.run (F := Ideal) m' ρ')
  obtain ⟨h0, h2, h3, h4, _⟩ := Cert.Pre_finite_inputs.Finite.real_of_pre _ _ _ _ _ _ (hpre c)
  rw [Cert.ReferenceIdeal.Read.val_main_v82_eq, (hagree c).1, (hagree c).2.1, (hagree c).2.2.1, (hagree c).2.2.2.1,
    (hagree c).2.2.2.2.1, (hagree c).2.2.2.2.2]
  exact (Cert.Proof.Bridge.out_eq m ρ c h0 h2 h3 h4).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
